-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x32 .f32) (main_arg3 : FVec F S32 .f32) (main_arg4 : FVec F S32x2 .f32) (main_arg5 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x2 : Shape := ⟨2, ![32, 2]⟩
abbrev S2 : Shape := ⟨1, ![2]⟩
abbrev S4000x32 : Shape := ⟨2, ![4000, 32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S5000x32 : Shape := ⟨2, ![5000, 32]⟩
abbrev S5000x1 : Shape := ⟨2, ![5000, 1]⟩
abbrev S1x32 : Shape := ⟨2, ![1, 32]⟩
abbrev S100000x2 : Shape := ⟨2, ![100000, 2]⟩
abbrev S4000x2 : Shape := ⟨2, ![4000, 2]⟩
abbrev S1700000x2 : Shape := ⟨2, ![1700000, 2]⟩
abbrev S5000x2 : Shape := ⟨2, ![5000, 2]⟩
abbrev S1x2 : Shape := ⟨2, ![1, 2]⟩

abbrev nBuf : Space → Nat
  | .hbm => 128
  | .vmem => 32
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000x32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x2, .f32⟩
  | .hbm, ⟨68, _⟩ => ⟨S1x1600000, .i32⟩
  | .hbm, ⟨69, _⟩ => ⟨S1600000, .i32⟩
  | .hbm, ⟨70, _⟩ => ⟨S1x1600000, .i32⟩
  | .hbm, ⟨71, _⟩ => ⟨S1600000, .i32⟩
  | .hbm, ⟨72, _⟩ => ⟨S100000, .i32⟩
  | .hbm, ⟨73, _⟩ => ⟨S1700000, .i32⟩
  | .hbm, ⟨74, _⟩ => ⟨S1700000, .i32⟩
  | .hbm, ⟨75, _⟩ => ⟨S_, .f32⟩
  | .hbm, ⟨76, _⟩ => ⟨S1700000, .f32⟩
  | .hbm, ⟨77, _⟩ => ⟨S_, .f32⟩
  | .hbm, ⟨78, _⟩ => ⟨S100000, .f32⟩
  | .hbm, ⟨79, _⟩ => ⟨S1700000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000, .f32⟩
  | .hbm, ⟨88, _⟩ => ⟨S_, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000, .f32⟩
  | .hbm, ⟨110, _⟩ => ⟨S1700000, .f32⟩
  | .hbm, ⟨111, _⟩ => ⟨S1700000x1, .f32⟩
  | .hbm, ⟨112, _⟩ => ⟨S_, .i32⟩
  | .hbm, ⟨113, _⟩ => ⟨S1700000, .i32⟩
  | .hbm, ⟨114, _⟩ => ⟨S1700000, .i1⟩
  | .hbm, ⟨115, _⟩ => ⟨S_, .i32⟩
  | .hbm, ⟨116, _⟩ => ⟨S1700000, .i32⟩
  | .hbm, ⟨117, _⟩ => ⟨S1700000, .i32⟩
  | .hbm, ⟨118, _⟩ => ⟨S1700000, .i32⟩
  | .hbm, ⟨119, _⟩ => ⟨S1700000x1, .i32⟩
  | .hbm, ⟨120, _⟩ => ⟨S1700000x2, .f32⟩
  | .hbm, ⟨121, _⟩ => ⟨S1700000x2, .f32⟩
  | .hbm, ⟨122, _⟩ => ⟨S_, .f32⟩
  | .hbm, ⟨123, _⟩ => ⟨S100000x2, .f32⟩
  | .hbm, ⟨124, _⟩ => ⟨S1700000x1, .i32⟩
  | .hbm, ⟨125, _⟩ => ⟨S100000x2, .f32⟩
  | .hbm, ⟨126, _⟩ => ⟨S1x2, .f32⟩
  | .hbm, ⟨127, _⟩ => ⟨S100000x2, .f32⟩
  | .local _ .vmem, ⟨0, _⟩ => ⟨S4000x32, .f32⟩
  | .local _ .vmem, ⟨1, _⟩ => ⟨S4000x32, .f32⟩
  | .local _ .vmem, ⟨2, _⟩ => ⟨S32x32, .f32⟩
  | .local _ .vmem, ⟨3, _⟩ => ⟨S4000x32, .f32⟩
  | .local _ .vmem, ⟨4, _⟩ => ⟨S4000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S5000x32, .f32⟩
  | .local _ .vmem, ⟨10, _⟩ => ⟨S5000x32, .f32⟩
  | .local _ .vmem, ⟨11, _⟩ => ⟨S4000x32, .f32⟩
  | .local _ .vmem, ⟨12, _⟩ => ⟨S4000x32, .f32⟩
  | .local _ .vmem, ⟨13, _⟩ => ⟨S1x32, .f32⟩
  | .local _ .vmem, ⟨14, _⟩ => ⟨S4000x32, .f32⟩
  | .local _ .vmem, ⟨15, _⟩ => ⟨S4000x32, .f32⟩
  | .local _ .vmem, ⟨16, _⟩ => ⟨S4000x32, .f32⟩
  | .local _ .vmem, ⟨17, _⟩ => ⟨S4000x32, .f32⟩
  | .local _ .vmem, ⟨18, _⟩ => ⟨S32x2, .f32⟩
  | .local _ .vmem, ⟨19, _⟩ => ⟨S4000x2, .f32⟩
  | .local _ .vmem, ⟨20, _⟩ => ⟨S4000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S5000x2, .f32⟩
  | .local _ .vmem, ⟨26, _⟩ => ⟨S5000x2, .f32⟩
  | .local _ .vmem, ⟨27, _⟩ => ⟨S4000x2, .f32⟩
  | .local _ .vmem, ⟨28, _⟩ => ⟨S4000x2, .f32⟩
  | .local _ .vmem, ⟨29, _⟩ => ⟨S1x2, .f32⟩
  | .local _ .vmem, ⟨30, _⟩ => ⟨S4000x2, .f32⟩
  | .local _ .vmem, ⟨31, _⟩ => ⟨S4000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_c_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![340], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x2_S32x2_0_0 : ∀ a, (![0, 0] : Fin 2 → Nat) a + S32x2.size a ≤ S32x2.size a
  h_S32x2 : 0 < S32x2.numel
  inb_S4000x2_S4000x2_0_0 : ∀ a, (![0, 0] : Fin 2 → Nat) a + S4000x2.size a ≤ S4000x2.size a
  h_S4000x2 : 0 < S4000x2.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  broadcasts_S5000x1_S5000x2 : S5000x1.Broadcasts S5000x2
  bcast_S_S100000x2 : S_.BroadcastsInDim S100000x2 (![] : Fin 0 → Fin S100000x2.rank)
  shapeCasts_S2_S1x2 : S2.ShapeCasts S1x2
  shapeCasts_S4000x2_S4000x2 : S4000x2.ShapeCasts S4000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  dot_S4000x32_S32x32_S4000x32_1_0_0_1_n_n_wf : DotDims.WF S4000x32 S32x32 S4000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x2_S4000x2_1_0_0_1_n_n_wf : DotDims.WF S4000x32 S32x2 S4000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S1700000x32.size a
  hwx1_0 : ∀ i : grid1.Coords, EltTy.bits .f32 = 32 ∨ (Rect.block (s := S1700000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S1700000x32.size a
  hwx1_2 : ∀ i : grid1.Coords, EltTy.bits .f32 = 32 ∨ (Rect.block (s := S1700000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S100000x32.size a
  hwx3_0 : ∀ i : grid3.Coords, EltTy.bits .f32 = 32 ∨ (Rect.block (s := S100000x32) S4000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x2.size a ≤ S32x2.size a
  hwx3_1 : ∀ i : grid3.Coords, EltTy.bits .f32 = 32 ∨ (Rect.block (s := S32x2) S32x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x2.size a ≤ S100000x2.size a
  hwx3_2 : ∀ i : grid3.Coords, EltTy.bits .f32 = 32 ∨ (Rect.block (s := S100000x2) S4000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x2.size a ≤ S1700000x2.size a
  hwx4_0 : ∀ i : grid4.Coords, EltTy.bits .f32 = 32 ∨ (Rect.block (s := S1700000x2) S5000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S1700000x1.size a
  hwx4_1 : ∀ i : grid4.Coords, EltTy.bits .f32 = 32 ∨ (Rect.block (s := S1700000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S1700000x2.size a
  hwx4_2 : ∀ i : grid4.Coords, EltTy.bits .f32 = 32 ∨ (Rect.block (s := S1700000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x2.size a ≤ S100000x2.size a
  hwx5_0 : ∀ i : grid5.Coords, EltTy.bits .f32 = 32 ∨ (Rect.block (s := S100000x2) S4000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x2.size a ≤ S100000x2.size a
  hwx5_2 : ∀ i : grid5.Coords, EltTy.bits .f32 = 32 ∨ (Rect.block (s := S100000x2) S4000x2.size (cc5_transform_2 i) (hinb5_2 i)).WholeWords (EltTy.packing .f32)

variable [Facts₀]

def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S32x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S4000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S5000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S4000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S4000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 135
  | .vmem => 0
  | .smem => 0
  | _ => 0

abbrev hbmTy0_0 (i : Nat) : BufTy := match i % 128 with
  | 0 => ⟨S100000x32, .f32⟩
  | 1 => ⟨S2x1600000, .i32⟩
  | 2 => ⟨S32x32, .f32⟩
  | 3 => ⟨S32, .f32⟩
  | 4 => ⟨S32x2, .f32⟩
  | 5 => ⟨S2, .f32⟩
  | 6 => ⟨S100000x32, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x32, .f32⟩
  | 59 => ⟨S1700000x1, .f32⟩
  | 60 => ⟨S1700000x32, .f32⟩
  | 61 => ⟨S1700000x32, .f32⟩
  | 62 => ⟨S_, .f32⟩
  | 63 => ⟨S100000x32, .f32⟩
  | 64 => ⟨S1700000x1, .i32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x2, .f32⟩
  | 73 => ⟨S1x1600000, .i32⟩
  | 74 => ⟨S1600000, .i32⟩
  | 75 => ⟨S1x1600000, .i32⟩
  | 76 => ⟨S1600000, .i32⟩
  | 77 => ⟨S100000, .i32⟩
  | 78 => ⟨S1700000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x2, .f32⟩
  | 125 => ⟨S1700000x1, .f32⟩
  | 126 => ⟨S1700000x2, .f32⟩
  | 127 => ⟨S1700000x2, .f32⟩
  | _ => ⟨S100000x32, .f32⟩

abbrev hbmTy0_1 (i : Nat) : BufTy := match i % 128 with
  | 0 => ⟨S_, .f32⟩
  | 1 => ⟨S100000x2, .f32⟩
  | 2 => ⟨S1700000x1, .i32⟩
  | 3 => ⟨S100000x2, .f32⟩
  | 4 => ⟨S1x2, .f32⟩
  | 5 => ⟨S100000x2, .f32⟩
  | 6 => ⟨S100000x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x32_S32x32_S100000x32_1_0_0_1_n_n_wf : DotDims.WF S100000x32 S32x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x2_S100000x2_1_0_0_1_n_n_wf : DotDims.WF S100000x32 S32x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.Spec.lean ====
/-
  The two-layer graph convolution, stated once as whole-array functions over the extended reals.

  Each of the six kernel regions writes one array; what that array holds, index by index, as a function of the
  arrays the region reads:
    * a linear layer      out[n, j] = ∑ k, x[n, k] * w[k, j]           (rows of x against the weight matrix),
    * a message scaling   out[e, j] = h[e, j] * norm[e, 0]             (every feature of edge e by the edge's weight),
    * a bias with a ReLU  out[n, j] = max (agg[n, j] + b[0, j]) 0,
    * a bias alone        out[n, j] = agg[n, j] + b[0, j].
  The index constructors name the entries an output entry depends on.
-/
import proofs.«144411_j46316927320191_1_alg».proof.KernelIdeal
import Idealize.ShloMosaic.PureOps.Ideal
import Idealize.ShloMosaic.Lib.ValueIdx

noncomputable section

open scoped BigOperators

namespace Cert.Gcn

open Idealize.ShloMosaic Cert.KernelIdeal

/-- Row `i 0`, column `k` of an array with `K` columns: the left factor's entry in a row-by-column product. -/
abbrev rowAt {N K J : Nat} (i : (⟨2, ![N, J]⟩ : Shape).Idx) (k : Fin K) : (⟨2, ![N, K]⟩ : Shape).Idx := fun a => match a with
  | ⟨0, _⟩ => ⟨(i 0).val, (i 0).isLt⟩
  | ⟨1, _⟩ => ⟨k.val, k.isLt⟩
/-- Row `k`, column `i 1` of a weight matrix: the right factor's entry. -/
abbrev colAt {N K J : Nat} (i : (⟨2, ![N, J]⟩ : Shape).Idx) (k : Fin K) : (⟨2, ![K, J]⟩ : Shape).Idx := fun a => match a with
  | ⟨0, _⟩ => ⟨k.val, k.isLt⟩
  | ⟨1, _⟩ => ⟨(i 1).val, (i 1).isLt⟩
/-- Entry `(i 0, 0)` of a one-column array: the per-row scalar an entry of row `i 0` is scaled by. -/
abbrev rowScalar {N J : Nat} (i : (⟨2, ![N, J]⟩ : Shape).Idx) : (⟨2, ![N, 1]⟩ : Shape).Idx := fun a => match a with
  | ⟨0, _⟩ => ⟨(i 0).val, (i 0).isLt⟩
  | ⟨1, _⟩ => ⟨0, Nat.one_pos⟩
/-- Entry `(0, i 1)` of a one-row array: the per-column bias an entry of column `i 1` is shifted by. -/
abbrev colScalar {N J : Nat} (i : (⟨2, ![N, J]⟩ : Shape).Idx) : (⟨2, ![1, J]⟩ : Shape).Idx := fun a => match a with
  | ⟨0, _⟩ => ⟨0, Nat.one_pos⟩
  | ⟨1, _⟩ => ⟨(i 1).val, (i 1).isLt⟩

/-- A linear layer: every row of `x` against the weight matrix `w`. -/
def linear {N K J : Nat} (x : FVec Ideal ⟨2, ![N, K]⟩ .f32) (w : FVec Ideal ⟨2, ![K, J]⟩ .f32) : FVec Ideal ⟨2, ![N, J]⟩ .f32 :=
  fun i => ∑ k : Fin K, x (rowAt i k) * w (colAt i k)

/-- The messages: every feature of edge `e` times the edge's normalisation weight. -/
def scaleRows {N J : Nat} (h : FVec Ideal ⟨2, ![N, J]⟩ .f32) (nrm : FVec Ideal ⟨2, ![N, 1]⟩ .f32) : FVec Ideal ⟨2, ![N, J]⟩ .f32 :=
  fun i => FloatOps.mulf (h i) (nrm (rowScalar i))

/-- The bias added to every row. -/
def addBias {N J : Nat} (agg : FVec Ideal ⟨2, ![N, J]⟩ .f32) (b : FVec Ideal ⟨2, ![1, J]⟩ .f32) : FVec Ideal ⟨2, ![N, J]⟩ .f32 :=
  fun i => FloatOps.addf (agg i) (b (colScalar i))

/-- The bias added to every row, then the ReLU (the maximum with zero). -/
def addBiasRelu {N J : Nat} (agg : FVec Ideal ⟨2, ![N, J]⟩ .f32) (b : FVec Ideal ⟨2, ![1, J]⟩ .f32) : FVec Ideal ⟨2, ![N, J]⟩ .f32 :=
  fun i => FloatOps.maximumf (FloatOps.addf (agg i) (b (colScalar i))) (FloatOps.ofBits .f32 0x00000000#32)

end Cert.Gcn

end
-- ==== Proof.HostSpec.lean ====
/-
  The host side of the graph convolution, named piece by piece, and the whole function the kernel program computes.

  From the edge list `e : i32[2, 1600000]` (row 0 the sources, row 1 the destinations) the program appends one
  self-loop per node, counts each node's in-degree by a scatter-add of ones, takes `dinv = deg^(-1/2)` (zero where the
  degree is not positive), and weighs edge `k` by `norm k = dinv[src k] * dinv[dst k]`, the indices read with negative
  values wrapped by the node count. One layer is then: a linear map of the node features, the rows gathered at the
  sources, scaled by `norm`, scatter-added at the destinations, and a bias (with a ReLU after the first layer).
  The pieces are generic in the float family; the layers' regions are the whole-array functions of Spec.lean.
-/
import proofs.«144411_j46316927320191_1_alg».proof.Proof.Spec

noncomputable section

namespace Cert.KernelIdeal.HostSpec

open Idealize.ShloMosaic Cert.KernelIdeal Cert.KernelIdeal.Facts₀

section
variable {F : FTy → Type} [FloatOps F] [Facts₀]

/-- The sources: row 0 of the edge list, as a flat array. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
/-- The destinations: row 1 of the edge list, as a flat array. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000
/-- One self-loop per node appended: the endpoints followed by `0, 1, …, 99999`. -/
def withLoops (a : (⟨S1600000, .i32⟩ : BufTy).Contents (Elt F)) : (⟨S1700000, .i32⟩ : BufTy).Contents (Elt F) :=
  concatenate S1700000 0 [⟨S1600000, a⟩, ⟨S100000, (iotaInDim S100000 32 0)⟩] concatenates_S1600000_S100000_S1700000_d0
/-- A negative index wrapped by the node count (jnp's indexing convention). -/
def wrapNeg (a : (⟨S1700000, .i32⟩ : BufTy).Contents (Elt F)) : (⟨S1700000, .i32⟩ : BufTy).Contents (Elt F) :=
  select (cmpi .slt a (broadcastInDim S1700000 ![] bcast_S_S1700000 (constantI S_ 32 0#32)))
    (addi a (broadcastInDim S1700000 ![] bcast_S_S1700000 (constantI S_ 32 100000#32))) a
/-- An index array as a one-column array of index vectors. -/
def asColumn (a : (⟨S1700000, .i32⟩ : BufTy).Contents (Elt F)) : (⟨S1700000x1, .i32⟩ : BufTy).Contents (Elt F) :=
  broadcastInDim S1700000x1 ![0] bcast_S1700000_S1700000x1_0 a
/-- Each node's in-degree, self-loop included: ones scatter-added at the destinations. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (asColumn dst) (broadcastInDim S1700000 ![] bcast_S_S1700000 (constant S_ .f32 0x3F800000#32))
/-- `deg^(-1/2)` where the degree is positive, zero elsewhere. -/
def invSqrtDeg (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.rsqrt (maximumf deg (broadcastInDim S100000 ![] bcast_S_S100000 (constant S_ .f32 0x3F800000#32))))
    (broadcastInDim S100000 ![] bcast_S_S100000 (id (constant S_ .f32 0x00000000#32)))
/-- A per-node array read at an index array (negative indices wrapped). -/
def takeNodes (x : (⟨S100000, .f32⟩ : BufTy).Contents (Elt F)) (idx : (⟨S1700000, .i32⟩ : BufTy).Contents (Elt F)) :
    (⟨S1700000, .f32⟩ : BufTy).Contents (Elt F) :=
  Host.gather gather_S100000_S1700000x1_S1700000_n_0_n_n_0_1_1 x (asColumn (wrapNeg idx))
/-- The symmetric normalisation weight of every edge: `dinv[src] * dinv[dst]`. -/
def edgeNorm (src dst : (⟨S1700000, .i32⟩ : BufTy).Contents (Elt F)) : (⟨S1700000, .f32⟩ : BufTy).Contents (Elt F) :=
  mulf (takeNodes (invSqrtDeg (degree dst)) src) (takeNodes (invSqrtDeg (degree dst)) dst)
/-- The weights as a one-column array (what the scaling region reads). -/
def edgeNormCol (src dst : (⟨S1700000, .i32⟩ : BufTy).Contents (Elt F)) : (⟨S1700000x1, .f32⟩ : BufTy).Contents (Elt F) :=
  shapeCast S1700000x1 (edgeNorm src dst) shapeCasts_S1700000_S1700000x1
/-- The rows of a 32-wide node table at the sources. -/
def takeRows32 (h : (⟨S100000x32, .f32⟩ : BufTy).Contents (Elt F)) (src : (⟨S1700000, .i32⟩ : BufTy).Contents (Elt F)) :
    (⟨S1700000x32, .f32⟩ : BufTy).Contents (Elt F) :=
  Host.gather gather_S100000x32_S1700000x1_S1700000x32_1_0_n_n_0_1_132 h (asColumn (wrapNeg src))
/-- The rows of a 2-wide node table at the sources. -/
def takeRows2 (h : (⟨S100000x2, .f32⟩ : BufTy).Contents (Elt F)) (src : (⟨S1700000, .i32⟩ : BufTy).Contents (Elt F)) :
    (⟨S1700000x2, .f32⟩ : BufTy).Contents (Elt F) :=
  Host.gather gather_S100000x2_S1700000x1_S1700000x2_1_0_n_n_0_1_12 h (asColumn (wrapNeg src))
/-- 32-wide messages summed at their destinations. -/
def sumAtDst32 (dst : (⟨S1700000, .i32⟩ : BufTy).Contents (Elt F)) (msg : (⟨S1700000x32, .f32⟩ : BufTy).Contents (Elt F)) :
    (⟨S100000x32, .f32⟩ : BufTy).Contents (Elt F) :=
  Host.scatterAdd scatter_S100000x32_S1700000x1_S1700000x32_1_0_0_1 (broadcastInDim S100000x32 ![] bcast_S_S100000x32 (constant S_ .f32 0x00000000#32))
    (asColumn dst) msg
/-- 2-wide messages summed at their destinations. -/
def sumAtDst2 (dst : (⟨S1700000, .i32⟩ : BufTy).Contents (Elt F)) (msg : (⟨S1700000x2, .f32⟩ : BufTy).Contents (Elt F)) :
    (⟨S100000x2, .f32⟩ : BufTy).Contents (Elt F) :=
  Host.scatterAdd scatter_S100000x2_S1700000x1_S1700000x2_1_0_0_1 (broadcastInDim S100000x2 ![] bcast_S_S100000x2 (constant S_ .f32 0x00000000#32))
    (asColumn dst) msg

end

section
variable [Facts₀]

/-- The first layer with its ReLU, as the kernel program computes it. -/
def layer1 (x : (⟨S100000x32, .f32⟩ : BufTy).Contents (Elt Ideal)) (e : (⟨S2x1600000, .i32⟩ : BufTy).Contents (Elt Ideal))
    (w1 : (⟨S32x32, .f32⟩ : BufTy).Contents (Elt Ideal)) (b1 : (⟨S32, .f32⟩ : BufTy).Contents (Elt Ideal)) :
    (⟨S100000x32, .f32⟩ : BufTy).Contents (Elt Ideal) :=
  Cert.Gcn.addBiasRelu (N := 100000) (J := 32)
    (sumAtDst32 (withLoops (dstRow e))
      (Cert.Gcn.scaleRows (N := 1700000) (J := 32) (takeRows32 (Cert.Gcn.linear (N := 100000) (K := 32) (J := 32) x w1) (withLoops (srcRow e)))
        (edgeNormCol (withLoops (srcRow e)) (withLoops (dstRow e)))))
    (shapeCast S1x32 b1 shapeCasts_S32_S1x32)

/-- The second layer, no ReLU. -/
def layer2 (h : (⟨S100000x32, .f32⟩ : BufTy).Contents (Elt Ideal)) (e : (⟨S2x1600000, .i32⟩ : BufTy).Contents (Elt Ideal))
    (w2 : (⟨S32x2, .f32⟩ : BufTy).Contents (Elt Ideal)) (b2 : (⟨S2, .f32⟩ : BufTy).Contents (Elt Ideal)) :
    (⟨S100000x2, .f32⟩ : BufTy).Contents (Elt Ideal) :=
  Cert.Gcn.addBias (N := 100000) (J := 2)
    (sumAtDst2 (withLoops (dstRow e))
      (Cert.Gcn.scaleRows (N := 1700000) (J := 2) (takeRows2 (Cert.Gcn.linear (N := 100000) (K := 32) (J := 2) h w2) (withLoops (srcRow e)))
        (edgeNormCol (withLoops (srcRow e)) (withLoops (dstRow e)))))
    (shapeCast S1x2 b2 shapeCasts_S2_S1x2)

/-- What the kernel program returns, of its six arguments. -/
def result (x : (⟨S100000x32, .f32⟩ : BufTy).Contents (Elt Ideal)) (e : (⟨S2x1600000, .i32⟩ : BufTy).Contents (Elt Ideal))
    (w1 : (⟨S32x32, .f32⟩ : BufTy).Contents (Elt Ideal)) (b1 : (⟨S32, .f32⟩ : BufTy).Contents (Elt Ideal))
    (w2 : (⟨S32x2, .f32⟩ : BufTy).Contents (Elt Ideal)) (b2 : (⟨S2, .f32⟩ : BufTy).Contents (Elt Ideal)) :
    (⟨S100000x2, .f32⟩ : BufTy).Contents (Elt Ideal) :=
  layer2 (layer1 x e w1 b1) e w2 b2

end

end Cert.KernelIdeal.HostSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region4.lean ====
/-
  The second layer's message scaling: 340 blocks of 5000 edges, each the gathered 2-wide rows times the edges' weights.
-/
import proofs.«144411_j46316927320191_1_alg».proof.Proof.Gen.KernelIdeal.Frame
import proofs.«144411_j46316927320191_1_alg».proof.Proof.Spec
import proofs.«144411_j46316927320191_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The body's stored value at an entry: the loaded row's entry times the row's weight (the two shape casts are
    identities, the broadcast reads column 0 of the weight block). -/
theorem pay4_apply (x0 : Vec Ideal S5000x2 .f32) (x1 : Vec Ideal S5000x1 .f32) (j : S5000x2.Idx) :
    k4_pay1 x0 x1 j = FloatOps.mulf (F := Ideal) (φ := .f32) (x0 j) (x1 (Cert.Gcn.rowScalar j)) := by
  unfold k4_pay1
  rw [shapeCast_self, shapeCast_self]
  show FloatOps.mulf (F := Ideal) (φ := .f32) (x0 j) (broadcastTo S5000x2 (x1 : S5000x1.Idx → Ideal .f32) broadcasts_S5000x1_S5000x2 j) = _
  rw [broadcastTo_apply (x1 : S5000x1.Idx → Ideal .f32) broadcasts_S5000x1_S5000x2 j (Cert.Gcn.rowScalar j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

/-- The printed index maps over the grid: every window's block index is the grid point on the row axis and 0 on the
    column axis. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled rows of the arrays as the region finds them. -/
theorem flushed4_eq (c : Dev nD) (t : Fin cfg4.N) :
    (dat4 (F := Ideal) V c).flushed 2 t
      = ((cfg4.win 2).blk t).view.read (Elt Ideal) (Cert.Gcn.scaleRows (N := 1700000) (J := 2) (V c main_v87) (V c main_v80)) := by
  show (cfg4.win 2).cut (grid4.coords t) ((dat4 (F := Ideal) V c).after 2 t) = _
  rw [after4_2]
  unfold out4_2
  rw [View.canon_unit_zero hz4]
  simp only [View.ld_unit_zero (S := S5000x2) hz4, View.ld_unit_zero (S := S5000x1) hz4]
  obtain ⟨e0, e1, e2, e3, e4, e5⟩ := idx_facts4 t
  funext j
  refine (pay4_apply _ _ j).trans ?_
  show FloatOps.mulf (F := Ideal) (φ := .f32) ((V c main_v87 : S1700000x2.Idx → EReal) (((cfg4.win 0).blk t).view.emb j))
      ((V c main_v80 : S1700000x1.Idx → EReal) (((cfg4.win 1).blk t).view.emb (Cert.Gcn.rowScalar j)))
    = FloatOps.mulf (F := Ideal) (φ := .f32) ((V c main_v87 : S1700000x2.Idx → EReal) (((cfg4.win 2).blk t).view.emb j))
      ((V c main_v80 : S1700000x1.Idx → EReal) (Cert.Gcn.rowScalar (((cfg4.win 2).blk t).view.emb j)))
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 2 + 1 * (j 1).val = win4_2.index t (1 : Fin 2) * 2 + 1 * (j 1).val; omega
  have h1 : ((cfg4.win 1).blk t).view.emb (Cert.Gcn.rowScalar j) = Cert.Gcn.rowScalar (((cfg4.win 2).blk t).view.emb j) := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 1 + 1 * 0 = 0; omega
  rw [h0, h1]

/-- An index of the array is in point `t`'s block iff each coordinate is in the block's range on its axis. -/
theorem mem_blk4 (t : Fin cfg4.N) (i : S1700000x2.Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v88).slice (win4_2.rect t)).set ↔ _
  rw [View.set_slice_whole, Rect.mem_set_unit]
  exact Iff.rfl

/-- Every index of the array lies in the block of the point its row falls in: the 340 blocks of 5000 rows tile it. -/
theorem cover4 (i : S1700000x2.Idx) : ∃ t : Fin cfg4.N, (cfg4.win 2).flush t = true ∧ i ∈ ((cfg4.win 2).blk t).view.set := by
  have hi0 : (i 0).val < 1700000 := (i 0).isLt
  have hi1 : (i 1).val < 2 := (i 1).isLt
  have hN : cfg4.N = 340 := N_4
  refine ⟨⟨(i 0).val / 5000, by rw [hN]; omega⟩, flush4_2 _, ?_⟩
  rw [mem_blk4]
  obtain ⟨-, -, -, -, e4, e5⟩ := idx_facts4 ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 2 ≤ (i 1).val ∧ (i 1).val < win4_2.index _ (1 : Fin 2) * 2 + 2; rw [e5]; omega

/-- The array region 4 leaves in `main_v88`, as one function of the arrays the region reads. -/
theorem final4 (c : Dev nD) :
    ((dat4 (F := Ideal) V c).arrAt 2 cfg4.N : S1700000x2.Idx → EReal) = Cert.Gcn.scaleRows (N := 1700000) (J := 2) (V c main_v87) (V c main_v80) :=
  (dat4 (F := Ideal) V c).arrAt_eq_of_cover 2 _ (fun t _ => flushed4_eq V c t) cover4

end Cert.KernelIdeal.RegionVal

end
-- ==== Proof.Region5.lean ====
/-
  The second layer's bias: 25 blocks of 4000 rows, each the aggregated rows plus the bias row.
-/
import proofs.«144411_j46316927320191_1_alg».proof.Proof.Gen.KernelIdeal.Frame
import proofs.«144411_j46316927320191_1_alg».proof.Proof.Spec
import proofs.«144411_j46316927320191_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

/-- The body's stored value at an entry: the loaded entry plus the bias of its column (the two shape casts are
    identities, the broadcast reads row 0 of the bias block at the entry's column). -/
theorem pay5_apply (x0 : Vec Ideal S4000x2 .f32) (x1 : Vec Ideal S1x2 .f32) (j : S4000x2.Idx) :
    k5_pay1 x0 x1 j = FloatOps.addf (F := Ideal) (φ := .f32) (x0 j) (x1 (Cert.Gcn.colScalar j)) := by
  unfold k5_pay1
  rw [shapeCast_self, shapeCast_self]
  show FloatOps.addf (F := Ideal) (φ := .f32) (x0 j) (broadcastTo S4000x2 (x1 : S1x2.Idx → Ideal .f32) broadcasts_S1x2_S4000x2 j) = _
  rw [broadcastTo_apply (x1 : S1x2.Idx → Ideal .f32) broadcasts_S1x2_S4000x2 j (Cert.Gcn.colScalar j) (fun a => match a with
    | ⟨0, _⟩ => by show 0 = if (1 : Nat) = 1 then 0 else (j 0).val; rw [if_pos rfl]
    | ⟨1, _⟩ => by show (j 1).val = if (2 : Nat) = 1 then 0 else (j 1).val; rw [if_neg (by decide)])]

/-- The printed index maps over the grid: the aggregated rows' window and the output window have block index the grid
    point on the row axis and 0 on the column axis; the bias row's window has block index 0 on both axes. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the biased rows of the arrays as the region finds them. -/
theorem flushed5_eq (c : Dev nD) (t : Fin cfg5.N) :
    (dat5 (F := Ideal) V c).flushed 2 t
      = ((cfg5.win 2).blk t).view.read (Elt Ideal) (Cert.Gcn.addBias (N := 100000) (J := 2) (V c main_v91) (V c main_v92)) := by
  show (cfg5.win 2).cut (grid5.coords t) ((dat5 (F := Ideal) V c).after 2 t) = _
  rw [after5_2]
  unfold out5_2
  rw [View.canon_unit_zero hz5]
  simp only [View.ld_unit_zero (S := S4000x2) hz5, View.ld_unit_zero (S := S1x2) hz5]
  obtain ⟨e0, e1, e2, e3, e4, e5⟩ := idx_facts5 t
  funext j
  refine (pay5_apply _ _ j).trans ?_
  show FloatOps.addf (F := Ideal) (φ := .f32) ((V c main_v91 : S100000x2.Idx → EReal) (((cfg5.win 0).blk t).view.emb j)) ((V c main_v92 : S1x2.Idx → EReal) (((cfg5.win 1).blk t).view.emb (Cert.Gcn.colScalar j)))
    = FloatOps.addf (F := Ideal) (φ := .f32) ((V c main_v91 : S100000x2.Idx → EReal) (((cfg5.win 2).blk t).view.emb j)) ((V c main_v92 : S1x2.Idx → EReal) (Cert.Gcn.colScalar (((cfg5.win 2).blk t).view.emb j)))
  have h0 : ((cfg5.win 0).blk t).view.emb j = ((cfg5.win 2).blk t).view.emb j := by
    funext a; apply Fin.ext
    match a with
    | ⟨0, _⟩ => show win5_0.index t (0 : Fin 2) * 4000 + 1 * (j 0).val = win5_2.index t (0 : Fin 2) * 4000 + 1 * (j 0).val; omega
    | ⟨1, _⟩ => show win5_0.index t (1 : Fin 2) * 2 + 1 * (j 1).val = win5_2.index t (1 : Fin 2) * 2 + 1 * (j 1).val; omega
  have h1 : ((cfg5.win 1).blk t).view.emb (Cert.Gcn.colScalar j) = Cert.Gcn.colScalar (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 2 + 1 * (j 1).val = win5_2.index t (1 : Fin 2) * 2 + 1 * (j 1).val; omega
  rw [h0, h1]

/-- An index of the array is in point `t`'s block iff each coordinate is in the block's range on its axis. -/
theorem mem_blk5 (t : Fin cfg5.N) (i : S100000x2.Idx) :
    i ∈ ((cfg5.win 2).blk t).view.set ↔ ∀ a : Fin 2, win5_2.index t a * S4000x2.size a ≤ (i a).val ∧ (i a).val < win5_2.index t a * S4000x2.size a + S4000x2.size a := by
  show i ∈ ((View.whole main_v93).slice (win5_2.rect t)).set ↔ _
  rw [View.set_slice_whole, Rect.mem_set_unit]
  exact Iff.rfl

/-- Every index of the array lies in the block of the point its row falls in: the 25 blocks of 4000 rows tile it. -/
theorem cover5 (i : S100000x2.Idx) : ∃ t : Fin cfg5.N, (cfg5.win 2).flush t = true ∧ i ∈ ((cfg5.win 2).blk t).view.set := by
  have hi0 : (i 0).val < 100000 := (i 0).isLt
  have hi1 : (i 1).val < 2 := (i 1).isLt
  have hN : cfg5.N = 25 := N_5
  refine ⟨⟨(i 0).val / 4000, by rw [hN]; omega⟩, flush5_2 _, ?_⟩
  rw [mem_blk5]
  obtain ⟨-, -, -, -, e4, e5⟩ := idx_facts5 ⟨(i 0).val / 4000, by rw [hN]; omega⟩
  intro a
  match a with
  | ⟨0, _⟩ => show win5_2.index _ (0 : Fin 2) * 4000 ≤ (i 0).val ∧ (i 0).val < win5_2.index _ (0 : Fin 2) * 4000 + 4000; rw [e4]; show (i 0).val / 4000 * 4000 ≤ (i 0).val ∧ (i 0).val < (i 0).val / 4000 * 4000 + 4000; omega
  | ⟨1, _⟩ => show win5_2.index _ (1 : Fin 2) * 2 ≤ (i 1).val ∧ (i 1).val < win5_2.index _ (1 : Fin 2) * 2 + 2; rw [e5]; omega

/-- The array region 5 leaves in `main_v93`, as one function of the arrays the region reads. -/
theorem final5 (c : Dev nD) :
    ((dat5 (F := Ideal) V c).arrAt 2 cfg5.N : S100000x2.Idx → EReal) = Cert.Gcn.addBias (N := 100000) (J := 2) (V c main_v91) (V c main_v92) :=
  (dat5 (F := Ideal) V c).arrAt_eq_of_cover 2 _ (fun t _ => flushed5_eq V c t) cover5

end Cert.KernelIdeal.RegionVal

end
-- ==== Proof.Region0.lean ====
/-
  The first linear layer's region: its 25 blocks of 4000 rows tile the output array, and each block is the rows' products with the
  weight matrix, so the array after the region is the linear layer of the region's two input arrays.
-/
import proofs.«144411_j46316927320191_1_alg».proof.Proof.Gen.KernelIdeal.Frame
import proofs.«144411_j46316927320191_1_alg».proof.Proof.Spec
import proofs.«144411_j46316927320191_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The body's stored value at an entry: the sum over the 32 contracted coordinates of the row block's entry in the
    entry's row times the weight block's entry in the entry's column (the narrowing casts are the identity on the
    extended reals, the accumulator is zero everywhere, and the dimension numbers are the plain matrix product's). -/
theorem pay0_apply (x0 : Vec Ideal S4000x32 .f32) (x1 : Vec Ideal S32x32 .f32) (j : S4000x32.Idx) :
    k0_pay1 x0 x1 j = ∑ k : Fin 32, (x0 : S4000x32.Idx → EReal) (Cert.Gcn.rowAt (N := 4000) (K := 32) (J := 32) j k)
      * (x1 : S32x32.Idx → EReal) (Cert.Gcn.colAt (N := 4000) (K := 32) (J := 32) j k) := by
  obtain ⟨p, q, rfl⟩ : ∃ (p : Fin 4000) (q : Fin 32), j = ix2 p q := ⟨j 0, j 1, eq_ix2 j⟩
  unfold k0_pay1
  show FloatOps.matmul (F := Ideal) (Dot2.mmDims 4000 32 32 Facts₀.dot_S4000x32_S32x32_S4000x32_1_0_0_1_n_n_wf) none
      (truncf .bf16 (x0 : FVec Ideal S4000x32 .f32) bitsLt_bf16_f32) (truncf .bf16 (x1 : FVec Ideal S32x32 .f32) bitsLt_bf16_f32)
      (constant ⟨2, ![4000, 32]⟩ .f32 0x00000000#32) (ix2 p q) = _
  refine (Dot2.matmul_zero_mm_apply _ none _ _ p q).trans ?_
  refine Finset.sum_congr rfl fun k _ => ?_
  have hl : (ix2 p k : S4000x32.Idx) = Cert.Gcn.rowAt (N := 4000) (K := 32) (J := 32) (ix2 p q) k := by
    funext a; match a with | ⟨0, _⟩ => rfl | ⟨1, _⟩ => rfl
  have hr : (ix2 k q : S32x32.Idx) = Cert.Gcn.colAt (N := 4000) (K := 32) (J := 32) (ix2 p q) k := by
    funext a; match a with | ⟨0, _⟩ => rfl | ⟨1, _⟩ => rfl
  rw [← hl, ← hr]
  rfl

/-- The printed index maps over the grid: the row block's and the output block's index is the grid point on the row
    axis and 0 on the column axis; the weight matrix is one block, index 0 on both axes. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the linear layer of the arrays as the region finds them: the row block's
    row `p` is the array's row `4000 t + p`, and the weight block is the whole weight matrix. -/
theorem flushed0_eq (c : Dev nD) (t : Fin cfg0.N) :
    (dat0 (F := Ideal) V c).flushed 2 t
      = ((cfg0.win 2).blk t).view.read (Elt Ideal) (Cert.Gcn.linear (N := 100000) (K := 32) (J := 32) (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S4000x32) hz0, View.ld_unit_zero (S := S32x32) hz0]
  obtain ⟨e0, e1, e2, e3, e4, e5⟩ := idx_facts0 t
  funext j
  refine (pay0_apply _ _ j).trans ?_
  have key : ∀ (X : S100000x32.Idx → EReal) (W : S32x32.Idx → EReal),
      ∑ k : Fin 32, X (((cfg0.win 0).blk t).view.emb (Cert.Gcn.rowAt (N := 4000) (K := 32) (J := 32) j k))
          * W (((cfg0.win 1).blk t).view.emb (Cert.Gcn.colAt (N := 4000) (K := 32) (J := 32) j k))
        = ∑ k : Fin 32, X (Cert.Gcn.rowAt (N := 100000) (K := 32) (J := 32) (((cfg0.win 2).blk t).view.emb j) k)
          * W (Cert.Gcn.colAt (N := 100000) (K := 32) (J := 32) (((cfg0.win 2).blk t).view.emb j) k) := by
    intro X W
    refine Finset.sum_congr rfl fun k _ => ?_
    have h0 : ((cfg0.win 0).blk t).view.emb (Cert.Gcn.rowAt (N := 4000) (K := 32) (J := 32) j k)
        = Cert.Gcn.rowAt (N := 100000) (K := 32) (J := 32) (((cfg0.win 2).blk t).view.emb j) k := by
      funext a; apply Fin.ext
      match a with
      | ⟨0, _⟩ => show win0_0.index t (0 : Fin 2) * 4000 + 1 * (j 0).val = win0_2.index t (0 : Fin 2) * 4000 + 1 * (j 0).val; omega
      | ⟨1, _⟩ => show win0_0.index t (1 : Fin 2) * 32 + 1 * k.val = k.val; omega
    have h1 : ((cfg0.win 1).blk t).view.emb (Cert.Gcn.colAt (N := 4000) (K := 32) (J := 32) j k)
        = Cert.Gcn.colAt (N := 100000) (K := 32) (J := 32) (((cfg0.win 2).blk t).view.emb j) k := by
      funext a; apply Fin.ext
      match a with
      | ⟨0, _⟩ => show win0_1.index t (0 : Fin 2) * 32 + 1 * k.val = k.val; omega
      | ⟨1, _⟩ => show win0_1.index t (1 : Fin 2) * 32 + 1 * (j 1).val = win0_2.index t (1 : Fin 2) * 32 + 1 * (j 1).val; omega
    rw [h0, h1]
  exact key (V c main_arg0) (V c main_arg2)

/-- An index of the array is in point `t`'s block iff each coordinate is in the block's range on its axis. -/
theorem mem_blk0 (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v0).slice (win0_2.rect t)).set ↔ _
  rw [View.set_slice_whole, Rect.mem_set_unit]
  exact Iff.rfl

/-- Every index of the array lies in the block of the point its row falls in: the 25 blocks of 4000 rows tile it. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  refine ⟨⟨(i 0).val / 4000, by rw [hN]; omega⟩, flush0_2 _, ?_⟩
  rw [mem_blk0]
  obtain ⟨-, -, -, -, e4, e5⟩ := idx_facts0 ⟨(i 0).val / 4000, by rw [hN]; omega⟩
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ (i 0).val ∧ (i 0).val < (i 0).val / 4000 * 4000 + 4000; omega
  | ⟨1, _⟩ => show win0_2.index _ (1 : Fin 2) * 32 ≤ (i 1).val ∧ (i 1).val < win0_2.index _ (1 : Fin 2) * 32 + 32; rw [e5]; omega

/-- The array region 0 leaves in `main_v0`, as one function of the arrays the region reads. -/
theorem final0 (c : Dev nD) :
    ((dat0 (F := Ideal) V c).arrAt 2 cfg0.N : S100000x32.Idx → EReal) = Cert.Gcn.linear (N := 100000) (K := 32) (J := 32) (V c main_arg0) (V c main_arg2) :=
  (dat0 (F := Ideal) V c).arrAt_eq_of_cover 2 _ (fun t _ => flushed0_eq V c t) cover0

end Cert.KernelIdeal.RegionVal

end
-- ==== Proof.Region1.lean ====
/-
  The first layer's message scaling: 340 blocks of 5000 edges tile the array, each block the gathered rows times the edges' weights.
-/
import proofs.«144411_j46316927320191_1_alg».proof.Proof.Gen.KernelIdeal.Frame
import proofs.«144411_j46316927320191_1_alg».proof.Proof.Spec
import proofs.«144411_j46316927320191_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The body's stored value at an entry: the loaded row's entry times the row's weight (the two shape casts are
    identities, the broadcast reads column 0 of the weight block). -/
theorem pay1_apply (x0 : Vec Ideal S5000x32 .f32) (x1 : Vec Ideal S5000x1 .f32) (j : S5000x32.Idx) :
    k1_pay1 x0 x1 j = FloatOps.mulf (F := Ideal) (φ := .f32) (x0 j) (x1 (Cert.Gcn.rowScalar j)) := by
  unfold k1_pay1
  rw [shapeCast_self, shapeCast_self]
  show FloatOps.mulf (F := Ideal) (φ := .f32) (x0 j) (broadcastTo S5000x32 (x1 : S5000x1.Idx → Ideal .f32) broadcasts_S5000x1_S5000x32 j) = _
  rw [broadcastTo_apply (x1 : S5000x1.Idx → Ideal .f32) broadcasts_S5000x1_S5000x32 j (Cert.Gcn.rowScalar j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

/-- The printed index maps over the grid: every window's block index is the grid point on the row axis and 0 on the
    column axis. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows of the arrays as the region finds them. -/
theorem flushed1_eq (c : Dev nD) (t : Fin cfg1.N) :
    (dat1 (F := Ideal) V c).flushed 2 t
      = ((cfg1.win 2).blk t).view.read (Elt Ideal) (Cert.Gcn.scaleRows (N := 1700000) (J := 32) (V c main_v40) (V c main_v33)) := by
  show (cfg1.win 2).cut (grid1.coords t) ((dat1 (F := Ideal) V c).after 2 t) = _
  rw [after1_2]
  unfold out1_2
  rw [View.canon_unit_zero hz1]
  simp only [View.ld_unit_zero (S := S5000x32) hz1, View.ld_unit_zero (S := S5000x1) hz1]
  obtain ⟨e0, e1, e2, e3, e4, e5⟩ := idx_facts1 t
  funext j
  refine (pay1_apply _ _ j).trans ?_
  show FloatOps.mulf (F := Ideal) (φ := .f32) ((V c main_v40 : S1700000x32.Idx → EReal) (((cfg1.win 0).blk t).view.emb j))
      ((V c main_v33 : S1700000x1.Idx → EReal) (((cfg1.win 1).blk t).view.emb (Cert.Gcn.rowScalar j)))
    = FloatOps.mulf (F := Ideal) (φ := .f32) ((V c main_v40 : S1700000x32.Idx → EReal) (((cfg1.win 2).blk t).view.emb j))
      ((V c main_v33 : S1700000x1.Idx → EReal) (Cert.Gcn.rowScalar (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (Cert.Gcn.rowScalar j) = Cert.Gcn.rowScalar (((cfg1.win 2).blk t).view.emb j) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  rw [h0, h1]

/-- An index of the array is in point `t`'s block iff each coordinate is in the block's range on its axis. -/
theorem mem_blk1 (t : Fin cfg1.N) (i : S1700000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v41).slice (win1_2.rect t)).set ↔ _
  rw [View.set_slice_whole, Rect.mem_set_unit]
  exact Iff.rfl

/-- Every index of the array lies in the block of the point its row falls in: the 340 blocks of 5000 rows tile it. -/
theorem cover1 (i : S1700000x32.Idx) : ∃ t : Fin cfg1.N, (cfg1.win 2).flush t = true ∧ i ∈ ((cfg1.win 2).blk t).view.set := by
  have hi0 : (i 0).val < 1700000 := (i 0).isLt
  have hi1 : (i 1).val < 32 := (i 1).isLt
  have hN : cfg1.N = 340 := N_1
  refine ⟨⟨(i 0).val / 5000, by rw [hN]; omega⟩, flush1_2 _, ?_⟩
  rw [mem_blk1]
  obtain ⟨-, -, -, -, e4, e5⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 32 ≤ (i 1).val ∧ (i 1).val < win1_2.index _ (1 : Fin 2) * 32 + 32; rw [e5]; omega

/-- The array region 1 leaves in `main_v41`, as one function of the arrays the region reads. -/
theorem final1 (c : Dev nD) :
    ((dat1 (F := Ideal) V c).arrAt 2 cfg1.N : S1700000x32.Idx → EReal) = Cert.Gcn.scaleRows (N := 1700000) (J := 32) (V c main_v40) (V c main_v33) :=
  (dat1 (F := Ideal) V c).arrAt_eq_of_cover 2 _ (fun t _ => flushed1_eq V c t) cover1

end Cert.KernelIdeal.RegionVal

end
-- ==== Proof.Region2.lean ====
/-
  The first layer's bias and ReLU: 25 blocks of 4000 rows tile the array, each block the aggregated rows plus the bias row, clamped at zero.
-/
import proofs.«144411_j46316927320191_1_alg».proof.Proof.Gen.KernelIdeal.Frame
import proofs.«144411_j46316927320191_1_alg».proof.Proof.Spec
import proofs.«144411_j46316927320191_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at an entry: the loaded entry plus the bias of its column, then the maximum with zero (the two
    shape casts are identities, the broadcast reads row 0 of the bias block at the entry's column). -/
theorem pay2_apply (x0 : Vec Ideal S4000x32 .f32) (x1 : Vec Ideal S1x32 .f32) (j : S4000x32.Idx) :
    k2_pay1 x0 x1 j = FloatOps.maximumf (F := Ideal) (φ := .f32) (FloatOps.addf (F := Ideal) (φ := .f32) (x0 j) (x1 (Cert.Gcn.colScalar j))) (FloatOps.ofBits (F := Ideal) .f32 0x00000000#32) := by
  unfold k2_pay1
  rw [shapeCast_self, shapeCast_self]
  show FloatOps.maximumf (F := Ideal) (φ := .f32) (FloatOps.addf (F := Ideal) (φ := .f32) (x0 j) (broadcastTo S4000x32 (x1 : S1x32.Idx → Ideal .f32) broadcasts_S1x32_S4000x32 j)) (FloatOps.ofBits (F := Ideal) .f32 0x00000000#32) = _
  rw [broadcastTo_apply (x1 : S1x32.Idx → Ideal .f32) broadcasts_S1x32_S4000x32 j (Cert.Gcn.colScalar j) (fun a => match a with
    | ⟨0, _⟩ => by show 0 = if (1 : Nat) = 1 then 0 else (j 0).val; rw [if_pos rfl]
    | ⟨1, _⟩ => by show (j 1).val = if (32 : Nat) = 1 then 0 else (j 1).val; rw [if_neg (by decide)])]

/-- The printed index maps over the grid: the aggregated rows' window and the output window have block index the grid
    point on the row axis and 0 on the column axis; the bias row's window has block index 0 on both axes. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the biased rows of the arrays as the region finds them. -/
theorem flushed2_eq (c : Dev nD) (t : Fin cfg2.N) :
    (dat2 (F := Ideal) V c).flushed 2 t
      = ((cfg2.win 2).blk t).view.read (Elt Ideal) (Cert.Gcn.addBiasRelu (N := 100000) (J := 32) (V c main_v44) (V c main_v45)) := by
  show (cfg2.win 2).cut (grid2.coords t) ((dat2 (F := Ideal) V c).after 2 t) = _
  rw [after2_2]
  unfold out2_2
  rw [View.canon_unit_zero hz2]
  simp only [View.ld_unit_zero (S := S4000x32) hz2, View.ld_unit_zero (S := S1x32) hz2]
  obtain ⟨e0, e1, e2, e3, e4, e5⟩ := idx_facts2 t
  funext j
  refine (pay2_apply _ _ j).trans ?_
  show FloatOps.maximumf (F := Ideal) (φ := .f32) (FloatOps.addf (F := Ideal) (φ := .f32) ((V c main_v44 : S100000x32.Idx → EReal) (((cfg2.win 0).blk t).view.emb j)) ((V c main_v45 : S1x32.Idx → EReal) (((cfg2.win 1).blk t).view.emb (Cert.Gcn.colScalar j)))) (FloatOps.ofBits (F := Ideal) .f32 0x00000000#32)
    = FloatOps.maximumf (F := Ideal) (φ := .f32) (FloatOps.addf (F := Ideal) (φ := .f32) ((V c main_v44 : S100000x32.Idx → EReal) (((cfg2.win 2).blk t).view.emb j)) ((V c main_v45 : S1x32.Idx → EReal) (Cert.Gcn.colScalar (((cfg2.win 2).blk t).view.emb j)))) (FloatOps.ofBits (F := Ideal) .f32 0x00000000#32)
  have h0 : ((cfg2.win 0).blk t).view.emb j = ((cfg2.win 2).blk t).view.emb j := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 32 + 1 * (j 1).val = win2_2.index t (1 : Fin 2) * 32 + 1 * (j 1).val; omega
  have h1 : ((cfg2.win 1).blk t).view.emb (Cert.Gcn.colScalar j) = Cert.Gcn.colScalar (((cfg2.win 2).blk t).view.emb j) := by
    funext a; apply Fin.ext
    match a with
    | ⟨0, _⟩ => show win2_1.index t (0 : Fin 2) * 1 + 1 * 0 = 0; omega
    | ⟨1, _⟩ => show win2_1.index t (1 : Fin 2) * 32 + 1 * (j 1).val = win2_2.index t (1 : Fin 2) * 32 + 1 * (j 1).val; omega
  rw [h0, h1]

/-- An index of the array is in point `t`'s block iff each coordinate is in the block's range on its axis. -/
theorem mem_blk2 (t : Fin cfg2.N) (i : S100000x32.Idx) :
    i ∈ ((cfg2.win 2).blk t).view.set ↔ ∀ a : Fin 2, win2_2.index t a * S4000x32.size a ≤ (i a).val ∧ (i a).val < win2_2.index t a * S4000x32.size a + S4000x32.size a := by
  show i ∈ ((View.whole main_v46).slice (win2_2.rect t)).set ↔ _
  rw [View.set_slice_whole, Rect.mem_set_unit]
  exact Iff.rfl

/-- Every index of the array lies in the block of the point its row falls in: the 25 blocks of 4000 rows tile it. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 25 := N_2
  refine ⟨⟨(i 0).val / 4000, by rw [hN]; omega⟩, flush2_2 _, ?_⟩
  rw [mem_blk2]
  obtain ⟨-, -, -, -, e4, e5⟩ := idx_facts2 ⟨(i 0).val / 4000, by rw [hN]; omega⟩
  intro a
  match a with
  | ⟨0, _⟩ => show win2_2.index _ (0 : Fin 2) * 4000 ≤ (i 0).val ∧ (i 0).val < win2_2.index _ (0 : Fin 2) * 4000 + 4000; rw [e4]; show (i 0).val / 4000 * 4000 ≤ (i 0).val ∧ (i 0).val < (i 0).val / 4000 * 4000 + 4000; omega
  | ⟨1, _⟩ => show win2_2.index _ (1 : Fin 2) * 32 ≤ (i 1).val ∧ (i 1).val < win2_2.index _ (1 : Fin 2) * 32 + 32; rw [e5]; omega

/-- The array region 2 leaves in `main_v46`, as one function of the arrays the region reads. -/
theorem final2 (c : Dev nD) :
    ((dat2 (F := Ideal) V c).arrAt 2 cfg2.N : S100000x32.Idx → EReal) = Cert.Gcn.addBiasRelu (N := 100000) (J := 32) (V c main_v44) (V c main_v45) :=
  (dat2 (F := Ideal) V c).arrAt_eq_of_cover 2 _ (fun t _ => flushed2_eq V c t) cover2

end Cert.KernelIdeal.RegionVal

end
-- ==== Proof.Region3.lean ====
/-
  The second linear layer's region: 25 blocks of 4000 rows, each the rows' products with the 32-by-2 weight matrix.
-/
import proofs.«144411_j46316927320191_1_alg».proof.Proof.Gen.KernelIdeal.Frame
import proofs.«144411_j46316927320191_1_alg».proof.Proof.Spec
import proofs.«144411_j46316927320191_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The body's stored value at an entry: the sum over the 32 contracted coordinates of the row block's entry in the
    entry's row times the weight block's entry in the entry's column (the narrowing casts are the identity on the
    extended reals, the shape cast is the identity, the accumulator is zero everywhere, and the dimension numbers are the plain matrix product's). -/
theorem pay3_apply (x0 : Vec Ideal S4000x32 .f32) (x1 : Vec Ideal S32x2 .f32) (j : S4000x2.Idx) :
    k3_pay1 x0 x1 j = ∑ k : Fin 32, (x0 : S4000x32.Idx → EReal) (Cert.Gcn.rowAt (N := 4000) (K := 32) (J := 2) j k)
      * (x1 : S32x2.Idx → EReal) (Cert.Gcn.colAt (N := 4000) (K := 32) (J := 2) j k) := by
  obtain ⟨p, q, rfl⟩ : ∃ (p : Fin 4000) (q : Fin 2), j = ix2 p q := ⟨j 0, j 1, eq_ix2 j⟩
  unfold k3_pay1
  rw [shapeCast_self]
  show FloatOps.matmul (F := Ideal) (Dot2.mmDims 4000 32 2 Facts₀.dot_S4000x32_S32x2_S4000x2_1_0_0_1_n_n_wf) none
      (truncf .bf16 (x0 : FVec Ideal S4000x32 .f32) bitsLt_bf16_f32) (truncf .bf16 (x1 : FVec Ideal S32x2 .f32) bitsLt_bf16_f32)
      (constant ⟨2, ![4000, 2]⟩ .f32 0x00000000#32) (ix2 p q) = _
  refine (Dot2.matmul_zero_mm_apply _ none _ _ p q).trans ?_
  refine Finset.sum_congr rfl fun k _ => ?_
  have hl : (ix2 p k : S4000x32.Idx) = Cert.Gcn.rowAt (N := 4000) (K := 32) (J := 2) (ix2 p q) k := by
    funext a; match a with | ⟨0, _⟩ => rfl | ⟨1, _⟩ => rfl
  have hr : (ix2 k q : S32x2.Idx) = Cert.Gcn.colAt (N := 4000) (K := 32) (J := 2) (ix2 p q) k := by
    funext a; match a with | ⟨0, _⟩ => rfl | ⟨1, _⟩ => rfl
  rw [← hl, ← hr]
  rfl

/-- The printed index maps over the grid: the row block's and the output block's index is the grid point on the row
    axis and 0 on the column axis; the weight matrix is one block, index 0 on both axes. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the linear layer of the arrays as the region finds them: the row block's
    row `p` is the array's row `4000 t + p`, and the weight block is the whole weight matrix. -/
theorem flushed3_eq (c : Dev nD) (t : Fin cfg3.N) :
    (dat3 (F := Ideal) V c).flushed 2 t
      = ((cfg3.win 2).blk t).view.read (Elt Ideal) (Cert.Gcn.linear (N := 100000) (K := 32) (J := 2) (V c main_v46) (V c main_arg4)) := by
  show (cfg3.win 2).cut (grid3.coords t) ((dat3 (F := Ideal) V c).after 2 t) = _
  rw [after3_2]
  unfold out3_2
  rw [View.canon_unit_zero hz3]
  simp only [View.ld_unit_zero (S := S4000x32) hz3, View.ld_unit_zero (S := S32x2) hz3]
  obtain ⟨e0, e1, e2, e3, e4, e5⟩ := idx_facts3 t
  funext j
  refine (pay3_apply _ _ j).trans ?_
  have key : ∀ (X : S100000x32.Idx → EReal) (W : S32x2.Idx → EReal),
      ∑ k : Fin 32, X (((cfg3.win 0).blk t).view.emb (Cert.Gcn.rowAt (N := 4000) (K := 32) (J := 2) j k))
          * W (((cfg3.win 1).blk t).view.emb (Cert.Gcn.colAt (N := 4000) (K := 32) (J := 2) j k))
        = ∑ k : Fin 32, X (Cert.Gcn.rowAt (N := 100000) (K := 32) (J := 2) (((cfg3.win 2).blk t).view.emb j) k)
          * W (Cert.Gcn.colAt (N := 100000) (K := 32) (J := 2) (((cfg3.win 2).blk t).view.emb j) k) := by
    intro X W
    refine Finset.sum_congr rfl fun k _ => ?_
    have h0 : ((cfg3.win 0).blk t).view.emb (Cert.Gcn.rowAt (N := 4000) (K := 32) (J := 2) j k)
        = Cert.Gcn.rowAt (N := 100000) (K := 32) (J := 2) (((cfg3.win 2).blk t).view.emb j) k := by
      funext a; apply Fin.ext
      match a with
      | ⟨0, _⟩ => show win3_0.index t (0 : Fin 2) * 4000 + 1 * (j 0).val = win3_2.index t (0 : Fin 2) * 4000 + 1 * (j 0).val; omega
      | ⟨1, _⟩ => show win3_0.index t (1 : Fin 2) * 32 + 1 * k.val = k.val; omega
    have h1 : ((cfg3.win 1).blk t).view.emb (Cert.Gcn.colAt (N := 4000) (K := 32) (J := 2) j k)
        = Cert.Gcn.colAt (N := 100000) (K := 32) (J := 2) (((cfg3.win 2).blk t).view.emb j) k := by
      funext a; apply Fin.ext
      match a with
      | ⟨0, _⟩ => show win3_1.index t (0 : Fin 2) * 32 + 1 * k.val = k.val; omega
      | ⟨1, _⟩ => show win3_1.index t (1 : Fin 2) * 2 + 1 * (j 1).val = win3_2.index t (1 : Fin 2) * 2 + 1 * (j 1).val; omega
    rw [h0, h1]
  exact key (V c main_v46) (V c main_arg4)

/-- An index of the array is in point `t`'s block iff each coordinate is in the block's range on its axis. -/
theorem mem_blk3 (t : Fin cfg3.N) (i : S100000x2.Idx) :
    i ∈ ((cfg3.win 2).blk t).view.set ↔ ∀ a : Fin 2, win3_2.index t a * S4000x2.size a ≤ (i a).val ∧ (i a).val < win3_2.index t a * S4000x2.size a + S4000x2.size a := by
  show i ∈ ((View.whole main_v47).slice (win3_2.rect t)).set ↔ _
  rw [View.set_slice_whole, Rect.mem_set_unit]
  exact Iff.rfl

/-- Every index of the array lies in the block of the point its row falls in: the 25 blocks of 4000 rows tile it. -/
theorem cover3 (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 25 := N_3
  refine ⟨⟨(i 0).val / 4000, by rw [hN]; omega⟩, flush3_2 _, ?_⟩
  rw [mem_blk3]
  obtain ⟨-, -, -, -, e4, e5⟩ := idx_facts3 ⟨(i 0).val / 4000, by rw [hN]; omega⟩
  intro a
  match a with
  | ⟨0, _⟩ => show win3_2.index _ (0 : Fin 2) * 4000 ≤ (i 0).val ∧ (i 0).val < win3_2.index _ (0 : Fin 2) * 4000 + 4000; rw [e4]; show (i 0).val / 4000 * 4000 ≤ (i 0).val ∧ (i 0).val < (i 0).val / 4000 * 4000 + 4000; omega
  | ⟨1, _⟩ => show win3_2.index _ (1 : Fin 2) * 2 ≤ (i 1).val ∧ (i 1).val < win3_2.index _ (1 : Fin 2) * 2 + 2; rw [e5]; omega

/-- The array region 3 leaves in `main_v47`, as one function of the arrays the region reads. -/
theorem final3 (c : Dev nD) :
    ((dat3 (F := Ideal) V c).arrAt 2 cfg3.N : S100000x2.Idx → EReal) = Cert.Gcn.linear (N := 100000) (K := 32) (J := 2) (V c main_v46) (V c main_arg4) :=
  (dat3 (F := Ideal) V c).arrAt_eq_of_cover 2 _ (fun t _ => flushed3_eq V c t) cover3

end Cert.KernelIdeal.RegionVal

end
-- ==== Proof.Chain1.lean ====
/-
  The first layer, boundary by boundary: what each buffer a later step reads holds when a kernel region or a stretch
  of host operations ends, as a function of the six argument arrays. A host stretch computes its results from the
  contents it starts from (stated first, for any starting contents); a region leaves its output array at the
  whole-array function of its inputs and every other buffer as it found it.
-/
import proofs.«144411_j46316927320191_1_alg».proof.Proof.Gen.KernelIdeal.Frame
import proofs.«144411_j46316927320191_1_alg».proof.Proof.HostSpec
import proofs.«144411_j46316927320191_1_alg».proof.Proof.Region0
import proofs.«144411_j46316927320191_1_alg».proof.Proof.Region1
import proofs.«144411_j46316927320191_1_alg».proof.Proof.Region2
import proofs.«144411_j46316927320191_1_alg».proof.Proof.Region3
import Idealize.ShloMosaic.Lib.StableHlo.Run

set_option maxRecDepth 16384

noncomputable section

namespace Cert.KernelIdeal.Chain1

open Idealize.ShloMosaic Idealize.ShloMosaic.TcCoe Idealize.SL.Sem Idealize.ShloMosaic.StableHlo
open Cert.KernelIdeal Cert.KernelIdeal.Gen Cert.KernelIdeal.HostSpec Cert.KernelIdeal.RegionVal

variable (m : (ℓ : Loc nD τ sig) → Buf (Elt Ideal) ℓ) (ρ : Dev nD → PrngReg) (c : Dev nD)

/-- The six argument arrays as launched. -/
abbrev X0 : (⟨S100000x32, .f32⟩ : BufTy).Contents (Elt Ideal) := m ((c.tc : Thread nD τ).loc main_arg0)
abbrev E : (⟨S2x1600000, .i32⟩ : BufTy).Contents (Elt Ideal) := m ((c.tc : Thread nD τ).loc main_arg1)
abbrev X2 : (⟨S32x32, .f32⟩ : BufTy).Contents (Elt Ideal) := m ((c.tc : Thread nD τ).loc main_arg2)
abbrev X3 : (⟨S32, .f32⟩ : BufTy).Contents (Elt Ideal) := m ((c.tc : Thread nD τ).loc main_arg3)
abbrev X4 : (⟨S32x2, .f32⟩ : BufTy).Contents (Elt Ideal) := m ((c.tc : Thread nD τ).loc main_arg4)
abbrev X5 : (⟨S2, .f32⟩ : BufTy).Contents (Elt Ideal) := m ((c.tc : Thread nD τ).loc main_arg5)
/-- The edge endpoints with the self-loops appended. -/
abbrev srcs : (⟨S1700000, .i32⟩ : BufTy).Contents (Elt Ideal) := withLoops (srcRow (E m c))
abbrev dsts : (⟨S1700000, .i32⟩ : BufTy).Contents (Elt Ideal) := withLoops (dstRow (E m c))

/-- The edge weights as a column, from the degree test `p`, the inverse square root `r` and the zero scalar `z` the
    host's `where` selects between, and the two endpoint arrays. -/
def normColOf (p : (⟨S100000, .i1⟩ : BufTy).Contents (Elt Ideal)) (r : (⟨S100000, .f32⟩ : BufTy).Contents (Elt Ideal))
    (z : (⟨S_, .f32⟩ : BufTy).Contents (Elt Ideal)) (s d : (⟨S1700000, .i32⟩ : BufTy).Contents (Elt Ideal)) :
    (⟨S1700000x1, .f32⟩ : BufTy).Contents (Elt Ideal) :=
  shapeCast S1700000x1
    (mulf (takeNodes (select p r (broadcastInDim S100000 ![] Facts₀.bcast_S_S100000 (id z))) s)
      (takeNodes (select p r (broadcastInDim S100000 ![] Facts₀.bcast_S_S100000 (id z))) d))
    Facts₀.shapeCasts_S1700000_S1700000x1

/-- With the test, the root and the zero of the degrees of `d`, that is the edge weights' column. -/
theorem normColOf_eq (s d : (⟨S1700000, .i32⟩ : BufTy).Contents (Elt Ideal)) :
    normColOf (cmpf .ogt (degree d) (broadcastInDim S100000 ![] Facts₀.bcast_S_S100000 (constant (F := Ideal) S_ .f32 0x00000000#32)))
      (Host.rsqrt (maximumf (degree d) (broadcastInDim S100000 ![] Facts₀.bcast_S_S100000 (constant (F := Ideal) S_ .f32 0x3F800000#32))))
      (constant (F := Ideal) S_ .f32 0x00000000#32) s d = edgeNormCol s d := rfl

/-! ## The host stretches of the first layer, from any starting contents -/

section Stretches
variable (W : Valuation τ sig (Elt Ideal))

theorem s1_v6 : StableHlo.after hostOps1 W (Proc.devRef .tc main_v6) = withLoops (srcRow (W (Proc.devRef .tc main_arg1))) := by
  after_results; rfl
theorem s1_v7 : StableHlo.after hostOps1 W (Proc.devRef .tc main_v7) = withLoops (dstRow (W (Proc.devRef .tc main_arg1))) := by
  after_results; rfl
theorem s1_v13 : StableHlo.after hostOps1 W (Proc.devRef .tc main_v13)
    = cmpf .ogt (degree (withLoops (dstRow (W (Proc.devRef .tc main_arg1))))) (broadcastInDim S100000 ![] Facts₀.bcast_S_S100000 (constant (F := Ideal) S_ .f32 0x00000000#32)) := by
  after_results; rfl
theorem s1_v16 : StableHlo.after hostOps1 W (Proc.devRef .tc main_v16)
    = Host.rsqrt (maximumf (degree (withLoops (dstRow (W (Proc.devRef .tc main_arg1))))) (broadcastInDim S100000 ![] Facts₀.bcast_S_S100000 (constant (F := Ideal) S_ .f32 0x3F800000#32))) := by
  after_results; rfl
theorem s1_cst_3 : StableHlo.after hostOps1 W (Proc.devRef .tc main_cst_3) = (constant (F := Ideal) S_ .f32 0x00000000#32 : (⟨S_, .f32⟩ : BufTy).Contents (Elt Ideal)) := by
  after_results
theorem s1_v0 : StableHlo.after hostOps1 W (Proc.devRef .tc main_v0) = W (Proc.devRef .tc main_v0) := by after_results_simp
theorem s1_arg1 : StableHlo.after hostOps1 W (Proc.devRef .tc main_arg1) = W (Proc.devRef .tc main_arg1) := by after_results_simp
theorem s1_arg3 : StableHlo.after hostOps1 W (Proc.devRef .tc main_arg3) = W (Proc.devRef .tc main_arg3) := by after_results_simp
theorem s1_arg4 : StableHlo.after hostOps1 W (Proc.devRef .tc main_arg4) = W (Proc.devRef .tc main_arg4) := by after_results_simp
theorem s1_arg5 : StableHlo.after hostOps1 W (Proc.devRef .tc main_arg5) = W (Proc.devRef .tc main_arg5) := by after_results_simp

theorem s12_v40 : StableHlo.after hostOps1_2 (StableHlo.after hostOps1_1 W) (Proc.devRef .tc main_v40)
    = takeRows32 (W (Proc.devRef .tc main_v0)) (W (Proc.devRef .tc main_v6)) := by
  after_results_simp; rfl
theorem s12_v33 : StableHlo.after hostOps1_2 (StableHlo.after hostOps1_1 W) (Proc.devRef .tc main_v33)
    = normColOf (W (Proc.devRef .tc main_v13)) (W (Proc.devRef .tc main_v16)) (W (Proc.devRef .tc main_cst_3))
        (W (Proc.devRef .tc main_v6)) (W (Proc.devRef .tc main_v7)) := by
  after_results_simp; rfl
theorem s12_v7 : StableHlo.after hostOps1_2 (StableHlo.after hostOps1_1 W) (Proc.devRef .tc main_v7) = W (Proc.devRef .tc main_v7) := by after_results_simp
theorem s12_arg1 : StableHlo.after hostOps1_2 (StableHlo.after hostOps1_1 W) (Proc.devRef .tc main_arg1) = W (Proc.devRef .tc main_arg1) := by after_results_simp
theorem s12_arg3 : StableHlo.after hostOps1_2 (StableHlo.after hostOps1_1 W) (Proc.devRef .tc main_arg3) = W (Proc.devRef .tc main_arg3) := by after_results_simp
theorem s12_arg4 : StableHlo.after hostOps1_2 (StableHlo.after hostOps1_1 W) (Proc.devRef .tc main_arg4) = W (Proc.devRef .tc main_arg4) := by after_results_simp
theorem s12_arg5 : StableHlo.after hostOps1_2 (StableHlo.after hostOps1_1 W) (Proc.devRef .tc main_arg5) = W (Proc.devRef .tc main_arg5) := by after_results_simp

theorem s2_v44 : StableHlo.after hostOps2 W (Proc.devRef .tc main_v44)
    = sumAtDst32 (W (Proc.devRef .tc main_v7)) (W (Proc.devRef .tc main_v41)) := by
  after_results_simp; rfl
theorem s2_v45 : StableHlo.after hostOps2 W (Proc.devRef .tc main_v45)
    = shapeCast S1x32 (W (Proc.devRef .tc main_arg3)) Facts₀.shapeCasts_S32_S1x32 := by
  after_results_simp; rfl
theorem s2_arg1 : StableHlo.after hostOps2 W (Proc.devRef .tc main_arg1) = W (Proc.devRef .tc main_arg1) := by after_results_simp
theorem s2_arg4 : StableHlo.after hostOps2 W (Proc.devRef .tc main_arg4) = W (Proc.devRef .tc main_arg4) := by after_results_simp
theorem s2_arg5 : StableHlo.after hostOps2 W (Proc.devRef .tc main_arg5) = W (Proc.devRef .tc main_arg5) := by after_results_simp

end Stretches

/-! ## After region 0 (the first linear layer) -/

/-- The first linear layer of the node features. -/
abbrev lin1 : (⟨S100000x32, .f32⟩ : BufTy).Contents (Elt Ideal) := Cert.Gcn.linear (N := 100000) (K := 32) (J := 32) (X0 m c) (X2 m c)

theorem W1_v0 : W1 m ρ c (Proc.devRef .tc main_v0) = lin1 m c :=
  (W1_arr m ρ c 2).trans (final0 (V0 m ρ) c)
theorem W1_arg1 : W1 m ρ c (Proc.devRef .tc main_arg1) = E m c := W1_of_ne m ρ c main_arg1 (by decide)
theorem W1_arg3 : W1 m ρ c (Proc.devRef .tc main_arg3) = X3 m c := W1_of_ne m ρ c main_arg3 (by decide)
theorem W1_arg4 : W1 m ρ c (Proc.devRef .tc main_arg4) = X4 m c := W1_of_ne m ρ c main_arg4 (by decide)
theorem W1_arg5 : W1 m ρ c (Proc.devRef .tc main_arg5) = X5 m c := W1_of_ne m ρ c main_arg5 (by decide)

/-! ## After the first host stretch -/

theorem W2_v6 : W2 m ρ c (Proc.devRef .tc main_v6) = srcs m c := (s1_v6 (W1 m ρ c)).trans (by rw [W1_arg1])
theorem W2_v7 : W2 m ρ c (Proc.devRef .tc main_v7) = dsts m c := (s1_v7 (W1 m ρ c)).trans (by rw [W1_arg1])
theorem W2_v0 : W2 m ρ c (Proc.devRef .tc main_v0) = lin1 m c := (s1_v0 (W1 m ρ c)).trans (W1_v0 m ρ c)

/-! ## At region 1's entry: the gathered rows, the edge weights as a column, the destinations -/

theorem W4_v40 : W4 m ρ c (Proc.devRef .tc main_v40) = takeRows32 (lin1 m c) (srcs m c) :=
  (s12_v40 (W2 m ρ c)).trans (by rw [W2_v0, W2_v6])
theorem W4_v33 : W4 m ρ c (Proc.devRef .tc main_v33) = edgeNormCol (srcs m c) (dsts m c) :=
  (s12_v33 (W2 m ρ c)).trans (by
    rw [W2_v6, W2_v7]
    show normColOf (StableHlo.after hostOps1 (W1 m ρ c) (Proc.devRef .tc main_v13)) (StableHlo.after hostOps1 (W1 m ρ c) (Proc.devRef .tc main_v16))
      (StableHlo.after hostOps1 (W1 m ρ c) (Proc.devRef .tc main_cst_3)) _ _ = _
    rw [s1_v13, s1_v16, s1_cst_3, W1_arg1]
    exact normColOf_eq _ _)
theorem W4_v7 : W4 m ρ c (Proc.devRef .tc main_v7) = dsts m c := (s12_v7 (W2 m ρ c)).trans (W2_v7 m ρ c)
theorem W4_arg1 : W4 m ρ c (Proc.devRef .tc main_arg1) = E m c :=
  (s12_arg1 (W2 m ρ c)).trans ((s1_arg1 (W1 m ρ c)).trans (W1_arg1 m ρ c))
theorem W4_arg3 : W4 m ρ c (Proc.devRef .tc main_arg3) = X3 m c :=
  (s12_arg3 (W2 m ρ c)).trans ((s1_arg3 (W1 m ρ c)).trans (W1_arg3 m ρ c))
theorem W4_arg4 : W4 m ρ c (Proc.devRef .tc main_arg4) = X4 m c :=
  (s12_arg4 (W2 m ρ c)).trans ((s1_arg4 (W1 m ρ c)).trans (W1_arg4 m ρ c))
theorem W4_arg5 : W4 m ρ c (Proc.devRef .tc main_arg5) = X5 m c :=
  (s12_arg5 (W2 m ρ c)).trans ((s1_arg5 (W1 m ρ c)).trans (W1_arg5 m ρ c))

/-! ## After region 1 (the message scaling) -/

/-- The first layer's messages: the gathered rows of the linear layer, each scaled by its edge's weight. -/
abbrev msg1 : (⟨S1700000x32, .f32⟩ : BufTy).Contents (Elt Ideal) :=
  Cert.Gcn.scaleRows (N := 1700000) (J := 32) (takeRows32 (lin1 m c) (srcs m c)) (edgeNormCol (srcs m c) (dsts m c))

theorem W5_v41 : W5 m ρ c (Proc.devRef .tc main_v41) = msg1 m c := by
  refine (W5_arr m ρ c 2).trans ((final1 (V4 m ρ) c).trans ?_)
  show Cert.Gcn.scaleRows (N := 1700000) (J := 32) (W4 m ρ c (Proc.devRef .tc main_v40)) (W4 m ρ c (Proc.devRef .tc main_v33)) = _
  rw [W4_v40, W4_v33]
theorem W5_v7 : W5 m ρ c (Proc.devRef .tc main_v7) = dsts m c := (W5_of_ne m ρ c main_v7 (by decide)).trans (W4_v7 m ρ c)
theorem W5_arg1 : W5 m ρ c (Proc.devRef .tc main_arg1) = E m c := (W5_of_ne m ρ c main_arg1 (by decide)).trans (W4_arg1 m ρ c)
theorem W5_arg3 : W5 m ρ c (Proc.devRef .tc main_arg3) = X3 m c := (W5_of_ne m ρ c main_arg3 (by decide)).trans (W4_arg3 m ρ c)
theorem W5_arg4 : W5 m ρ c (Proc.devRef .tc main_arg4) = X4 m c := (W5_of_ne m ρ c main_arg4 (by decide)).trans (W4_arg4 m ρ c)
theorem W5_arg5 : W5 m ρ c (Proc.devRef .tc main_arg5) = X5 m c := (W5_of_ne m ρ c main_arg5 (by decide)).trans (W4_arg5 m ρ c)

/-! ## At region 2's entry: the messages summed at their destinations, the bias as a row -/

theorem W6_v44 : W6 m ρ c (Proc.devRef .tc main_v44) = sumAtDst32 (dsts m c) (msg1 m c) :=
  (s2_v44 (W5 m ρ c)).trans (by rw [W5_v7, W5_v41])
theorem W6_v45 : W6 m ρ c (Proc.devRef .tc main_v45) = shapeCast S1x32 (X3 m c) Facts₀.shapeCasts_S32_S1x32 :=
  (s2_v45 (W5 m ρ c)).trans (by rw [W5_arg3])
theorem W6_arg1 : W6 m ρ c (Proc.devRef .tc main_arg1) = E m c := (s2_arg1 (W5 m ρ c)).trans (W5_arg1 m ρ c)
theorem W6_arg4 : W6 m ρ c (Proc.devRef .tc main_arg4) = X4 m c := (s2_arg4 (W5 m ρ c)).trans (W5_arg4 m ρ c)
theorem W6_arg5 : W6 m ρ c (Proc.devRef .tc main_arg5) = X5 m c := (s2_arg5 (W5 m ρ c)).trans (W5_arg5 m ρ c)

/-! ## After region 2 (bias and ReLU): the first layer's output -/

theorem W7_v46 : W7 m ρ c (Proc.devRef .tc main_v46) = layer1 (X0 m c) (E m c) (X2 m c) (X3 m c) := by
  refine (W7_arr m ρ c 2).trans ((final2 (V6 m ρ) c).trans ?_)
  show Cert.Gcn.addBiasRelu (N := 100000) (J := 32) (W6 m ρ c (Proc.devRef .tc main_v44)) (W6 m ρ c (Proc.devRef .tc main_v45)) = _
  rw [W6_v44, W6_v45]
  rfl
theorem W7_arg1 : W7 m ρ c (Proc.devRef .tc main_arg1) = E m c := (W7_of_ne m ρ c main_arg1 (by decide)).trans (W6_arg1 m ρ c)
theorem W7_arg4 : W7 m ρ c (Proc.devRef .tc main_arg4) = X4 m c := (W7_of_ne m ρ c main_arg4 (by decide)).trans (W6_arg4 m ρ c)
theorem W7_arg5 : W7 m ρ c (Proc.devRef .tc main_arg5) = X5 m c := (W7_of_ne m ρ c main_arg5 (by decide)).trans (W6_arg5 m ρ c)

/-! ## After region 3 (the second linear layer) -/

/-- The second linear layer's output: the first layer's output against the 32-by-2 weight matrix. -/
abbrev lin2 : (⟨S100000x2, .f32⟩ : BufTy).Contents (Elt Ideal) :=
  Cert.Gcn.linear (N := 100000) (K := 32) (J := 2) (layer1 (X0 m c) (E m c) (X2 m c) (X3 m c)) (X4 m c)

theorem W8_v47 : W8 m ρ c (Proc.devRef .tc main_v47) = lin2 m c := by
  refine (W8_arr m ρ c 2).trans ((final3 (V7 m ρ) c).trans ?_)
  show Cert.Gcn.linear (N := 100000) (K := 32) (J := 2) (W7 m ρ c (Proc.devRef .tc main_v46)) (W7 m ρ c (Proc.devRef .tc main_arg4)) = _
  rw [W7_v46, W7_arg4]
theorem W8_arg1 : W8 m ρ c (Proc.devRef .tc main_arg1) = E m c := (W8_of_ne m ρ c main_arg1 (by decide)).trans (W7_arg1 m ρ c)
theorem W8_arg5 : W8 m ρ c (Proc.devRef .tc main_arg5) = X5 m c := (W8_of_ne m ρ c main_arg5 (by decide)).trans (W7_arg5 m ρ c)

end Cert.KernelIdeal.Chain1

end
-- ==== Proof.Chain2.lean ====
/-
  The second layer, boundary by boundary, from the first layer's output through the last region: what each buffer a
  later step reads holds when a kernel region or a stretch of host operations ends, as a function of the six argument
  arrays; the last boundary's result array is the whole function the kernel program computes.
-/
import proofs.«144411_j46316927320191_1_alg».proof.Proof.Gen.KernelIdeal.Frame
import proofs.«144411_j46316927320191_1_alg».proof.Proof.HostSpec
import proofs.«144411_j46316927320191_1_alg».proof.Proof.Region4
import proofs.«144411_j46316927320191_1_alg».proof.Proof.Region5
import proofs.«144411_j46316927320191_1_alg».proof.Proof.Chain1
import Idealize.ShloMosaic.Lib.StableHlo.Run

set_option maxRecDepth 16384

noncomputable section

namespace Cert.KernelIdeal.Chain2

open Idealize.ShloMosaic Idealize.ShloMosaic.TcCoe Idealize.SL.Sem Idealize.ShloMosaic.StableHlo
open Cert.KernelIdeal Cert.KernelIdeal.Gen Cert.KernelIdeal.HostSpec Cert.KernelIdeal.RegionVal

variable (m : (ℓ : Loc nD τ sig) → Buf (Elt Ideal) ℓ) (ρ : Dev nD → PrngReg) (c : Dev nD)

open Cert.KernelIdeal.Chain1

/-! ## The host stretches of the second layer, from any starting contents -/

section Stretches
variable (W : Valuation τ sig (Elt Ideal))

theorem s4_v53 : StableHlo.after hostOps4 W (Proc.devRef .tc main_v53) = withLoops (srcRow (W (Proc.devRef .tc main_arg1))) := by
  after_results; rfl
theorem s4_v54 : StableHlo.after hostOps4 W (Proc.devRef .tc main_v54) = withLoops (dstRow (W (Proc.devRef .tc main_arg1))) := by
  after_results; rfl
theorem s4_v60 : StableHlo.after hostOps4 W (Proc.devRef .tc main_v60)
    = cmpf .ogt (degree (withLoops (dstRow (W (Proc.devRef .tc main_arg1))))) (broadcastInDim S100000 ![] Facts₀.bcast_S_S100000 (constant (F := Ideal) S_ .f32 0x00000000#32)) := by
  after_results; rfl
theorem s4_v63 : StableHlo.after hostOps4 W (Proc.devRef .tc main_v63)
    = Host.rsqrt (maximumf (degree (withLoops (dstRow (W (Proc.devRef .tc main_arg1))))) (broadcastInDim S100000 ![] Facts₀.bcast_S_S100000 (constant (F := Ideal) S_ .f32 0x3F800000#32))) := by
  after_results; rfl
theorem s4_cst_14 : StableHlo.after hostOps4 W (Proc.devRef .tc main_cst_14) = (constant (F := Ideal) S_ .f32 0x00000000#32 : (⟨S_, .f32⟩ : BufTy).Contents (Elt Ideal)) := by
  after_results
theorem s4_v47 : StableHlo.after hostOps4 W (Proc.devRef .tc main_v47) = W (Proc.devRef .tc main_v47) := by after_results_simp
theorem s4_arg5 : StableHlo.after hostOps4 W (Proc.devRef .tc main_arg5) = W (Proc.devRef .tc main_arg5) := by after_results_simp

theorem s42_v87 : StableHlo.after hostOps4_2 (StableHlo.after hostOps4_1 W) (Proc.devRef .tc main_v87)
    = takeRows2 (W (Proc.devRef .tc main_v47)) (W (Proc.devRef .tc main_v53)) := by
  after_results_simp; rfl
theorem s42_v80 : StableHlo.after hostOps4_2 (StableHlo.after hostOps4_1 W) (Proc.devRef .tc main_v80)
    = normColOf (W (Proc.devRef .tc main_v60)) (W (Proc.devRef .tc main_v63)) (W (Proc.devRef .tc main_cst_14))
        (W (Proc.devRef .tc main_v53)) (W (Proc.devRef .tc main_v54)) := by
  after_results_simp; rfl
theorem s42_v54 : StableHlo.after hostOps4_2 (StableHlo.after hostOps4_1 W) (Proc.devRef .tc main_v54) = W (Proc.devRef .tc main_v54) := by after_results_simp
theorem s42_arg5 : StableHlo.after hostOps4_2 (StableHlo.after hostOps4_1 W) (Proc.devRef .tc main_arg5) = W (Proc.devRef .tc main_arg5) := by after_results_simp

theorem s5_v91 : StableHlo.after hostOps5 W (Proc.devRef .tc main_v91)
    = sumAtDst2 (W (Proc.devRef .tc main_v54)) (W (Proc.devRef .tc main_v88)) := by
  after_results_simp; rfl
theorem s5_v92 : StableHlo.after hostOps5 W (Proc.devRef .tc main_v92)
    = shapeCast S1x2 (W (Proc.devRef .tc main_arg5)) Facts₀.shapeCasts_S2_S1x2 := by
  after_results_simp; rfl

end Stretches

/-! ## After the host stretch that recomputes the endpoints, the degree test and the inverse square root -/

theorem W9_v53 : W9 m ρ c (Proc.devRef .tc main_v53) = srcs m c := (s4_v53 (W8 m ρ c)).trans (by rw [W8_arg1])
theorem W9_v54 : W9 m ρ c (Proc.devRef .tc main_v54) = dsts m c := (s4_v54 (W8 m ρ c)).trans (by rw [W8_arg1])
theorem W9_v47 : W9 m ρ c (Proc.devRef .tc main_v47) = lin2 m c := (s4_v47 (W8 m ρ c)).trans (W8_v47 m ρ c)

/-! ## At region 4's entry -/

theorem W11_v87 : W11 m ρ c (Proc.devRef .tc main_v87) = takeRows2 (lin2 m c) (srcs m c) :=
  (s42_v87 (W9 m ρ c)).trans (by rw [W9_v47, W9_v53])
theorem W11_v80 : W11 m ρ c (Proc.devRef .tc main_v80) = edgeNormCol (srcs m c) (dsts m c) :=
  (s42_v80 (W9 m ρ c)).trans (by
    rw [W9_v53, W9_v54]
    show normColOf (StableHlo.after hostOps4 (W8 m ρ c) (Proc.devRef .tc main_v60)) (StableHlo.after hostOps4 (W8 m ρ c) (Proc.devRef .tc main_v63))
      (StableHlo.after hostOps4 (W8 m ρ c) (Proc.devRef .tc main_cst_14)) _ _ = _
    rw [s4_v60, s4_v63, s4_cst_14, W8_arg1]
    exact normColOf_eq _ _)
theorem W11_v54 : W11 m ρ c (Proc.devRef .tc main_v54) = dsts m c := (s42_v54 (W9 m ρ c)).trans (W9_v54 m ρ c)
theorem W11_arg5 : W11 m ρ c (Proc.devRef .tc main_arg5) = X5 m c :=
  (s42_arg5 (W9 m ρ c)).trans ((s4_arg5 (W8 m ρ c)).trans (W8_arg5 m ρ c))

/-! ## After region 4 (the message scaling) -/

/-- The second layer's messages. -/
abbrev msg2 : (⟨S1700000x2, .f32⟩ : BufTy).Contents (Elt Ideal) :=
  Cert.Gcn.scaleRows (N := 1700000) (J := 2) (takeRows2 (lin2 m c) (srcs m c)) (edgeNormCol (srcs m c) (dsts m c))

theorem W12_v88 : W12 m ρ c (Proc.devRef .tc main_v88) = msg2 m c := by
  refine (W12_arr m ρ c 2).trans ((final4 (V11 m ρ) c).trans ?_)
  show Cert.Gcn.scaleRows (N := 1700000) (J := 2) (W11 m ρ c (Proc.devRef .tc main_v87)) (W11 m ρ c (Proc.devRef .tc main_v80)) = _
  rw [W11_v87, W11_v80]
theorem W12_v54 : W12 m ρ c (Proc.devRef .tc main_v54) = dsts m c := (W12_of_ne m ρ c main_v54 (by decide)).trans (W11_v54 m ρ c)
theorem W12_arg5 : W12 m ρ c (Proc.devRef .tc main_arg5) = X5 m c := (W12_of_ne m ρ c main_arg5 (by decide)).trans (W11_arg5 m ρ c)

/-! ## At region 5's entry -/

theorem W13_v91 : W13 m ρ c (Proc.devRef .tc main_v91) = sumAtDst2 (dsts m c) (msg2 m c) :=
  (s5_v91 (W12 m ρ c)).trans (by rw [W12_v54, W12_v88])
theorem W13_v92 : W13 m ρ c (Proc.devRef .tc main_v92) = shapeCast S1x2 (X5 m c) Facts₀.shapeCasts_S2_S1x2 :=
  (s5_v92 (W12 m ρ c)).trans (by rw [W12_arg5])

/-! ## After region 5 (the bias): the result -/

/-- The result array at the last boundary is the whole function of the six arguments. -/
theorem W14_v93 : W14 m ρ c (Proc.devRef .tc main_v93) = result (X0 m c) (E m c) (X2 m c) (X3 m c) (X4 m c) (X5 m c) := by
  refine (W14_arr m ρ c 2).trans ((final5 (V13 m ρ) c).trans ?_)
  show Cert.Gcn.addBias (N := 100000) (J := 2) (W13 m ρ c (Proc.devRef .tc main_v91)) (W13 m ρ c (Proc.devRef .tc main_v92)) = _
  rw [W13_v91, W13_v92]
  rfl

end Cert.KernelIdeal.Chain2

end
-- ==== Proof.RefStages.lean ====
/-
  The reference program's run, read stage by stage.

  The program is a straight line of 129 host operations; the buffers it leaves are the fold of the operations'
  results over the launch contents. The line is cut in three pieces before each appending of the self-loops (a
  concatenate whose operands are computed arrays): within a piece every array a concatenate joins is one the piece
  starts from, so a piece's results are read off by one pass and a few steps past the piece's first operation. Each piece's results are the stage functions of the
  arguments: the first piece gives the first matrix product, the edge list's two rows and the node numbers; the second
  the first layer and the second matrix product; the third the result.
-/
import proofs.«144411_j46316927320191_1_alg».proof.Proof.RefOps
import proofs.«144411_j46316927320191_1_alg».proof.Proof.RefRead
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

section Pieces
variable (W : Valuation τ sig (Elt F))
  (x0 : (⟨S100000x32, .f32⟩ : BufTy).Contents (Elt F)) (x1 : (⟨S2x1600000, .i32⟩ : BufTy).Contents (Elt F))
  (x2 : (⟨S32x32, .f32⟩ : BufTy).Contents (Elt F)) (x3 : (⟨S32, .f32⟩ : BufTy).Contents (Elt F))
  (x4 : (⟨S32x2, .f32⟩ : BufTy).Contents (Elt F)) (x5 : (⟨S2, .f32⟩ : BufTy).Contents (Elt F))

/-! ## The first piece -/

theorem A_v0 : after opsA W (Proc.devRef .tc main_v0) = val_main_v0 (W (Proc.devRef .tc main_arg0)) (W (Proc.devRef .tc main_arg2)) := by
  after_results_simp; rfl
theorem A_v2 : after opsA W (Proc.devRef .tc main_v2) = val_main_v2 (W (Proc.devRef .tc main_arg1)) := by
  after_results_simp; rfl
theorem A_v4 : after opsA W (Proc.devRef .tc main_v4) = val_main_v4 (W (Proc.devRef .tc main_arg1)) := by
  after_results_simp; rfl
theorem A_v5 : after opsA W (Proc.devRef .tc main_v5) = val_main_v5 (F := F) := by
  after_results_simp; rfl
theorem A_arg1 : after opsA W (Proc.devRef .tc main_arg1) = W (Proc.devRef .tc main_arg1) := by after_results_simp
theorem A_arg3 : after opsA W (Proc.devRef .tc main_arg3) = W (Proc.devRef .tc main_arg3) := by after_results_simp
theorem A_arg4 : after opsA W (Proc.devRef .tc main_arg4) = W (Proc.devRef .tc main_arg4) := by after_results_simp
theorem A_arg5 : after opsA W (Proc.devRef .tc main_arg5) = W (Proc.devRef .tc main_arg5) := by after_results_simp

/-! ## The second piece, from contents `W` that hold the first piece's results -/

section B
variable (h0 : W (Proc.devRef .tc main_v0) = val_main_v0 x0 x2) (h2 : W (Proc.devRef .tc main_v2) = val_main_v2 x1)
  (h4 : W (Proc.devRef .tc main_v4) = val_main_v4 x1) (h5 : W (Proc.devRef .tc main_v5) = val_main_v5 (F := F))
  (ha1 : W (Proc.devRef .tc main_arg1) = x1) (ha3 : W (Proc.devRef .tc main_arg3) = x3)
  (ha4 : W (Proc.devRef .tc main_arg4) = x4) (ha5 : W (Proc.devRef .tc main_arg5) = x5)
include h0 h2 h4 h5 ha3 ha4 in
set_option maxHeartbeats 4000000 in
theorem B_v50 : after opsB W (Proc.devRef .tc main_v50) = val_main_v50 x0 x1 x2 x3 x4 := by
  after_results_simp
  repeat (rw [binary_result_ne]; rotate_left; decide)
  rw [h0, h2, h4, h5, ha3, ha4]
  rfl
include ha1 in
theorem B_v52 : after opsB W (Proc.devRef .tc main_v52) = val_main_v52 x1 := by
  after_results_simp
  rw [ha1]
  rfl
include ha1 in
theorem B_v54 : after opsB W (Proc.devRef .tc main_v54) = val_main_v54 x1 := by
  after_results_simp
  rw [ha1]
  rfl
theorem B_v55 : after opsB W (Proc.devRef .tc main_v55) = val_main_v55 (F := F) := by
  after_results_simp; rfl
include ha5 in
theorem B_arg5 : after opsB W (Proc.devRef .tc main_arg5) = x5 := by
  after_results_simp
  exact ha5
end B

/-! ## The third piece, from contents `W` that hold the second piece's results -/

section C
variable (h50 : W (Proc.devRef .tc main_v50) = val_main_v50 x0 x1 x2 x3 x4) (h52 : W (Proc.devRef .tc main_v52) = val_main_v52 x1)
  (h54 : W (Proc.devRef .tc main_v54) = val_main_v54 x1) (h55 : W (Proc.devRef .tc main_v55) = val_main_v55 (F := F))
  (ha5 : W (Proc.devRef .tc main_arg5) = x5)
include h50 h52 h54 h55 ha5 in
set_option maxHeartbeats 4000000 in
theorem C_v98 : after opsC W (Proc.devRef .tc main_v98) = val_main_v98 x0 x1 x2 x3 x4 x5 := by
  after_results_simp
  repeat (rw [binary_result_ne]; rotate_left; decide)
  rw [h50, h52, h54, h55, ha5]
  rfl
end C

end Pieces

/-! ## The whole line -/

/-- The result buffer after all 129 operations is the last stage function of the six arguments. -/
theorem after_ops_v98 (V : Valuation τ sig (Elt F)) :
    after ops V (Proc.devRef .tc main_v98)
      = val_main_v98 (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_cut, StableHlo.after_append, StableHlo.after_append]
  refine C_v98 (after opsB (after opsA V)) _ _ _ _ _ _ ?_ ?_ ?_ ?_ ?_
  · exact B_v50 (after opsA V) _ _ _ _ _ (A_v0 V) (A_v2 V) (A_v4 V) (A_v5 V) (A_arg3 V) (A_arg4 V)
  · exact B_v52 (after opsA V) _ (A_arg1 V)
  · exact B_v54 (after opsA V) _ (A_arg1 V)
  · exact B_v55 (after opsA V)
  · exact B_arg5 (after opsA V) _ (A_arg5 V)

set_option maxRecDepth 8192 in
set_option maxHeartbeats 51600000 in
/-- On every device, from any memory with zero counters: every weakly fair execution of the reference's @main
    terminates with the result at the last stage function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98)
        = val_main_v98 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v98).trans (after_ops_v98 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.Bridge.lean ====
/-
  The reference program's stages are the kernel program's function.

  Both programs compute the edge endpoints, the degrees, the inverse square roots and the edge weights by the SAME host
  operations, so those stages agree as they stand, for any float family. The layers differ in spelling only:
    * the reference's host matrix product is the row-by-column sum of the linear layer,
    * it scales a message by the weight broadcast along the feature axis, where the kernel reads the weight from a
      one-column array: both are `h[e, j] * norm[e]`,
    * it adds the bias broadcast along the node axis, where the kernel reads it from a one-row array: both are
      `agg[n, j] + b[j]`, and the ReLU is the maximum with the zero constant on both sides.
-/
import proofs.«144411_j46316927320191_1_alg».proof.Proof.RefRead
import proofs.«144411_j46316927320191_1_alg».proof.Proof.HostSpec
import proofs.«144411_j46316927320191_1_alg».proof.Proof.Gen.KernelIdeal
import Idealize.ShloMosaic.Lib.Pipeline.Value
import Idealize.ShloMosaic.Lib.ValueIdx

noncomputable section

namespace Cert.Proof.Bridge

open Idealize.ShloMosaic Idealize.ShloMosaic.ValueIdx
open Cert.KernelIdeal Cert.KernelIdeal.HostSpec Cert.KernelIdeal.Facts₀
open Cert.ReferenceIdeal.ReadP

/-! ## The shared host stages, for any float family -/

section Shared
variable {F : FTy → Type} [FloatOps F]
variable (e : (⟨S2x1600000, .i32⟩ : BufTy).Contents (Elt F))

theorem srcs_eq : val_main_v6 (F := F) e = withLoops (srcRow e) := rfl
theorem dsts_eq : val_main_v7 (F := F) e = withLoops (dstRow e) := rfl
theorem srcs_eq' : val_main_v56 (F := F) e = withLoops (srcRow e) := rfl
theorem dsts_eq' : val_main_v57 (F := F) e = withLoops (dstRow e) := rfl

theorem dinv_eq : val_main_v17 (F := F) e = invSqrtDeg (degree (withLoops (dstRow e))) := rfl
theorem dinv_eq' : val_main_v67 (F := F) e = invSqrtDeg (degree (withLoops (dstRow e))) := rfl

theorem norm_eq : val_main_v32 (F := F) e = edgeNorm (withLoops (srcRow e)) (withLoops (dstRow e)) := by
  unfold val_main_v32 val_main_v24 val_main_v31 edgeNorm takeNodes
  rw [dinv_eq]
  rfl
theorem norm_eq' : val_main_v82 (F := F) e = edgeNorm (withLoops (srcRow e)) (withLoops (dstRow e)) := by
  unfold val_main_v82 val_main_v74 val_main_v81 edgeNorm takeNodes
  rw [dinv_eq']
  rfl

/-- The wrapped sources as a column of index vectors, both layers. -/
theorem srcCol_eq : val_main_v38 (F := F) e = asColumn (wrapNeg (withLoops (srcRow e))) := rfl
theorem srcCol_eq' : val_main_v88 (F := F) e = asColumn (wrapNeg (withLoops (srcRow e))) := rfl
/-- The destinations as a column of index vectors, both layers. -/
theorem dstCol_eq : val_main_v44 (F := F) e = asColumn (withLoops (dstRow e)) := rfl
theorem dstCol_eq' : val_main_v94 (F := F) e = asColumn (withLoops (dstRow e)) := rfl

end Shared

/-! ## The layers, at the ideal instance -/

variable (x0 : (⟨S100000x32, .f32⟩ : BufTy).Contents (Elt Ideal)) (e : (⟨S2x1600000, .i32⟩ : BufTy).Contents (Elt Ideal))
  (x2 : (⟨S32x32, .f32⟩ : BufTy).Contents (Elt Ideal)) (x3 : (⟨S32, .f32⟩ : BufTy).Contents (Elt Ideal))
  (x4 : (⟨S32x2, .f32⟩ : BufTy).Contents (Elt Ideal)) (x5 : (⟨S2, .f32⟩ : BufTy).Contents (Elt Ideal))

/-- The host's matrix product is the row-by-column sum. -/
theorem lin1_eq : val_main_v0 (F := Ideal) x0 x2 = Cert.Gcn.linear (N := 100000) (K := 32) (J := 32) x0 x2 := by
  funext i
  rw [val_main_v0_apply]
  unfold Cert.Gcn.linear
  refine Finset.sum_congr rfl fun k _ => ?_
  have hl : lidx_main_v0 i k = Cert.Gcn.rowAt i k := funext fun a => match a with | ⟨0, _⟩ => rfl | ⟨1, _⟩ => rfl
  have hr : ridx_main_v0 i k = Cert.Gcn.colAt i k := funext fun a => match a with | ⟨0, _⟩ => rfl | ⟨1, _⟩ => rfl
  rw [hl, hr]

/-- A weight broadcast along the feature axis, read at `(e, j)`, is the one-column array's entry `(e, 0)`. -/
theorem normBcast32 (n : (⟨S1700000, .f32⟩ : BufTy).Contents (Elt Ideal)) (i : S1700000x32.Idx) :
    (n (idx_main_v40 (idx_main_v41 i)) : EReal)
      = (shapeCast S1700000x1 n shapeCasts_S1700000_S1700000x1 : S1700000x1.Idx → EReal) (Cert.Gcn.rowScalar i) :=
  (shapeCast_apply (n : S1700000.Idx → EReal) shapeCasts_S1700000_S1700000x1 (Cert.Gcn.rowScalar i) (idx_main_v40 (idx_main_v41 i)) (by
    rw [Shape.rowMajor_val_two, Shape.rowMajor_val_one]
    show (i 0).val = (i 0).val * 1 + 0
    omega)).symm

/-- The first layer's messages. -/
theorem msg1_eq : val_main_v42 (F := Ideal) x0 e x2
    = Cert.Gcn.scaleRows (N := 1700000) (J := 32)
        (takeRows32 (Cert.Gcn.linear (N := 100000) (K := 32) (J := 32) x0 x2) (withLoops (srcRow e)))
        (edgeNormCol (withLoops (srcRow e)) (withLoops (dstRow e))) := by
  funext i
  rw [val_main_v42_apply, val_main_v41_apply, val_main_v40_apply, norm_eq]
  unfold val_main_v39
  rw [lin1_eq, srcCol_eq]
  exact congrArg _ (normBcast32 _ i)

/-- The first layer's aggregate: the messages summed at their destinations. -/
theorem agg1_eq : val_main_v45 (F := Ideal) x0 e x2
    = sumAtDst32 (withLoops (dstRow e)) (Cert.Gcn.scaleRows (N := 1700000) (J := 32)
        (takeRows32 (Cert.Gcn.linear (N := 100000) (K := 32) (J := 32) x0 x2) (withLoops (srcRow e)))
        (edgeNormCol (withLoops (srcRow e)) (withLoops (dstRow e)))) := by
  unfold val_main_v45
  rw [msg1_eq, dstCol_eq]
  rfl

/-- A bias broadcast along the node axis, read at `(n, j)`, is the one-row array's entry `(0, j)`. -/
theorem biasBcast32 (i : S100000x32.Idx) :
    (x3 (idx_main_v46 (idx_main_v47 i)) : EReal)
      = (shapeCast S1x32 x3 shapeCasts_S32_S1x32 : S1x32.Idx → EReal) (Cert.Gcn.colScalar i) :=
  (shapeCast_apply (x3 : S32.Idx → EReal) shapeCasts_S32_S1x32 (Cert.Gcn.colScalar i) (idx_main_v46 (idx_main_v47 i)) (by
    rw [Shape.rowMajor_val_two, Shape.rowMajor_val_one]
    show (i 1).val = 0 * 32 + (i 1).val
    omega)).symm

/-- The first layer's output: the reference's bias, broadcast twice, and its ReLU against the kernel's. -/
theorem layer1_eq : val_main_v49 (F := Ideal) x0 e x2 x3 = layer1 x0 e x2 x3 := by
  funext i
  rw [val_main_v49_apply, val_main_v48_apply, val_main_v47_apply, val_main_v46_apply, val_main_call1_v0_apply,
    val_main_call1_cst_apply, agg1_eq, biasBcast32 x3 i]
  rfl

/-- The second matrix product. -/
theorem lin2_eq : val_main_v50 (F := Ideal) x0 e x2 x3 x4
    = Cert.Gcn.linear (N := 100000) (K := 32) (J := 2) (layer1 x0 e x2 x3) x4 := by
  funext i
  rw [val_main_v50_apply, layer1_eq]
  unfold Cert.Gcn.linear
  refine Finset.sum_congr rfl fun k _ => ?_
  have hl : lidx_main_v50 i k = Cert.Gcn.rowAt i k := funext fun a => match a with | ⟨0, _⟩ => rfl | ⟨1, _⟩ => rfl
  have hr : ridx_main_v50 i k = Cert.Gcn.colAt i k := funext fun a => match a with | ⟨0, _⟩ => rfl | ⟨1, _⟩ => rfl
  rw [hl, hr]

theorem normBcast2 (n : (⟨S1700000, .f32⟩ : BufTy).Contents (Elt Ideal)) (i : S1700000x2.Idx) :
    (n (idx_main_v90 (idx_main_v91 i)) : EReal)
      = (shapeCast S1700000x1 n shapeCasts_S1700000_S1700000x1 : S1700000x1.Idx → EReal) (Cert.Gcn.rowScalar i) :=
  (shapeCast_apply (n : S1700000.Idx → EReal) shapeCasts_S1700000_S1700000x1 (Cert.Gcn.rowScalar i) (idx_main_v90 (idx_main_v91 i)) (by
    rw [Shape.rowMajor_val_two, Shape.rowMajor_val_one]
    show (i 0).val = (i 0).val * 1 + 0
    omega)).symm

/-- The second layer's messages. -/
theorem msg2_eq : val_main_v92 (F := Ideal) x0 e x2 x3 x4
    = Cert.Gcn.scaleRows (N := 1700000) (J := 2)
        (takeRows2 (Cert.Gcn.linear (N := 100000) (K := 32) (J := 2) (layer1 x0 e x2 x3) x4) (withLoops (srcRow e)))
        (edgeNormCol (withLoops (srcRow e)) (withLoops (dstRow e))) := by
  funext i
  rw [val_main_v92_apply, val_main_v91_apply, val_main_v90_apply, norm_eq']
  unfold val_main_v89
  rw [lin2_eq, srcCol_eq']
  exact congrArg _ (normBcast2 _ i)

theorem agg2_eq : val_main_v95 (F := Ideal) x0 e x2 x3 x4
    = sumAtDst2 (withLoops (dstRow e)) (Cert.Gcn.scaleRows (N := 1700000) (J := 2)
        (takeRows2 (Cert.Gcn.linear (N := 100000) (K := 32) (J := 2) (layer1 x0 e x2 x3) x4) (withLoops (srcRow e)))
        (edgeNormCol (withLoops (srcRow e)) (withLoops (dstRow e)))) := by
  unfold val_main_v95
  rw [msg2_eq, dstCol_eq']
  rfl

theorem biasBcast2 (i : S100000x2.Idx) :
    (x5 (idx_main_v96 (idx_main_v97 i)) : EReal)
      = (shapeCast S1x2 x5 shapeCasts_S2_S1x2 : S1x2.Idx → EReal) (Cert.Gcn.colScalar i) :=
  (shapeCast_apply (x5 : S2.Idx → EReal) shapeCasts_S2_S1x2 (Cert.Gcn.colScalar i) (idx_main_v96 (idx_main_v97 i)) (by
    rw [Shape.rowMajor_val_two, Shape.rowMajor_val_one]
    show (i 1).val = 0 * 2 + (i 1).val
    omega)).symm

/-- THE TWO PROGRAMS COMPUTE ONE FUNCTION: the reference's last stage is the kernel program's result. -/
theorem result_eq : val_main_v98 (F := Ideal) x0 e x2 x3 x4 x5 = result x0 e x2 x3 x4 x5 := by
  funext i
  rw [val_main_v98_apply, val_main_v97_apply, val_main_v96_apply, agg2_eq, biasBcast2 x5 i]
  rfl

end Cert.Proof.Bridge

end
-- ==== Proof.lean ====
/-
  The certificate of the two-layer graph convolution (normalise, aggregate, transform, ReLU between the layers) against
  its jnp reference, over the extended reals.

  The kernel program runs six pipelined regions — per layer a linear map, a scaling of the gathered rows by the edge
  weights, and a bias (with the ReLU after the first layer) — among stretches of host operations that build the edge
  list with self-loops, the degrees, the weights `deg^(-1/2)[src] * deg^(-1/2)[dst]`, the gathers and the
  scatter-adds. The reference computes the same with host operations only. At the ideal instance a blockwise matrix
  product into a zero accumulator is the host's product, the bf16 rounding on the way in is the identity, and a weight
  or a bias read from a one-column or one-row array is the same entry the reference reads from a broadcast; every
  other operation is the same on both sides. No law used needs finiteness: the two sides are the same sums and
  products in the same arrangement, so the precondition is not opened.

  * the three frames: the two kernel programs' are the generated whole-program frames; the reference's is its run with
    the result dropped;
  * `preserves`: the ideal pass rewrote nothing;
  * `algebraic`: the kernel program's result array is `HostSpec.result` of the six arguments (the run with the result
    named, then the boundary-by-boundary reading of Chain1 and Chain2 over the six regions' whole-array functions),
    the reference's is its last stage (RefStages), and the two are one function (Bridge).
-/
import proofs.«144411_j46316927320191_1_alg».proof.Defs
import proofs.«144411_j46316927320191_1_alg».proof.Proof.Gen.Kernel
import proofs.«144411_j46316927320191_1_alg».proof.Proof.Gen.Kernel.Skeleton
import proofs.«144411_j46316927320191_1_alg».proof.Proof.Gen.Kernel.Launch
import proofs.«144411_j46316927320191_1_alg».proof.Proof.Gen.Kernel.Points
import proofs.«144411_j46316927320191_1_alg».proof.Proof.Gen.Kernel.Frame
import proofs.«144411_j46316927320191_1_alg».proof.Proof.Gen.KernelIdeal
import proofs.«144411_j46316927320191_1_alg».proof.Proof.Gen.KernelIdeal.Skeleton
import proofs.«144411_j46316927320191_1_alg».proof.Proof.Gen.KernelIdeal.Launch
import proofs.«144411_j46316927320191_1_alg».proof.Proof.Gen.KernelIdeal.Points
import proofs.«144411_j46316927320191_1_alg».proof.Proof.Gen.KernelIdeal.Frame
import proofs.«144411_j46316927320191_1_alg».proof.Proof.Gen.ReferenceIdeal
import proofs.«144411_j46316927320191_1_alg».proof.Proof.Gen.Pre_finite_inputs
import proofs.«144411_j46316927320191_1_alg».proof.Proof.KernelRun
import proofs.«144411_j46316927320191_1_alg».proof.Proof.Chain2
import proofs.«144411_j46316927320191_1_alg».proof.Proof.RefStages
import proofs.«144411_j46316927320191_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The ideal pass rewrote no operation. -/
theorem preserves : Cert.preserves_Kernel_KernelIdeal := trivial

/-- Both programs end with the result array at `HostSpec.result` of the (agreeing) arguments. -/
theorem algebraic : Cert.algebraic_KernelIdeal_ReferenceIdeal := by
  intro m ρ m' ρ' _ hagree
  refine ⟨fun c => Cert.KernelIdeal.HostSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain2.W14_v93 m ρ c), (h c).2⟩)
      (Cert.KernelIdeal.GenR.run_named (F := Ideal) m ρ)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1, (hagree c).2.2.2.2.2]
    exact Cert.Proof.Bridge.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
